-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x30 : Shape := ⟨2, ![200000, 30]⟩
abbrev S8192 : Shape := ⟨1, ![8192]⟩
abbrev S8192x30 : Shape := ⟨2, ![8192, 30]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x30 : S_.BroadcastsInDim S200000x30 (![] : Fin 0 → Fin S200000x30.rank)
  reducesTo_S200000x30_S_d0_1 : S200000x30.ReducesTo [0, 1] S_
  bcast_S_S8192 : S_.BroadcastsInDim S8192 (![] : Fin 0 → Fin S8192.rank)
  reducesTo_S8192_S_d0 : S8192.ReducesTo [0] S_
  bcast_S_S8192x30 : S_.BroadcastsInDim S8192x30 (![] : Fin 0 → Fin S8192x30.rank)
  reducesTo_S8192x30_S_d0_1 : S8192x30.ReducesTo [0, 1] S_

variable [Facts]

def fn_part1 {F : FTy → Type} [FloatOps F] (main_arg3 : IVec S8192x30 32) (main_v10 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v10 main_v16
  let main_c_6 : IVec S_ 32 := constantI S_ 32 0#32
  let main_v18 : IVec S8192x30 32 := broadcastInDim S8192x30 ![] bcast_S_S8192x30 main_c_6
  let main_v19 : IVec S8192x30 1 := cmpi .sge main_arg3 main_v18
  let main_c_7 : IVec S_ 32 := constantI S_ 32 200000#32
  let main_v20 : IVec S8192x30 32 := broadcastInDim S8192x30 ![] bcast_S_S8192x30 main_c_7
  let main_v21 : IVec S8192x30 1 := cmpi .slt main_arg3 main_v20
  let main_v22 : IVec S8192x30 1 := andi main_v19 main_v21
  let main_c_8 : IVec S_ 1 := constantI S_ 1 1#1
  let main_v23 : IVec S_ 1 := (fun x v => Host.reduce IntOp.andi x v reducesTo_S8192x30_S_d0_1 h_S_) main_v22 main_c_8
  let main_v24 : IVec S_ 1 := andi main_v17 main_v23
  main_v24

def fn {F : FTy → Type} [FloatOps F] (main_arg0 : FVec F S200000x256 .f32) (main_arg1 : IVec S200000x30 32) (main_arg2 : IVec S8192 32) (main_arg3 : IVec S8192x30 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_c_0 : IVec S_ 32 := constantI S_ 32 0#32
  let main_v4 : IVec S200000x30 32 := broadcastInDim S200000x30 ![] bcast_S_S200000x30 main_c_0
  let main_v5 : IVec S200000x30 1 := cmpi .sge main_arg1 main_v4
  let main_c_1 : IVec S_ 32 := constantI S_ 32 200000#32
  let main_v6 : IVec S200000x30 32 := broadcastInDim S200000x30 ![] bcast_S_S200000x30 main_c_1
  let main_v7 : IVec S200000x30 1 := cmpi .slt main_arg1 main_v6
  let main_v8 : IVec S200000x30 1 := andi main_v5 main_v7
  let main_c_2 : IVec S_ 1 := constantI S_ 1 1#1
  let main_v9 : IVec S_ 1 := (fun x v => Host.reduce IntOp.andi x v reducesTo_S200000x30_S_d0_1 h_S_) main_v8 main_c_2
  let main_v10 : IVec S_ 1 := andi main_v3 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 200000#32
  let main_v13 : IVec S8192 32 := broadcastInDim S8192 ![] bcast_S_S8192 main_c_4
  let main_v14 : IVec S8192 1 := cmpi .slt main_arg2 main_v13
  let main_v15 : IVec S8192 1 := andi main_v12 main_v14
  let main_c_5 : IVec S_ 1 := constantI S_ 1 1#1
  fn_part1 (F := F) main_arg3 main_v10 main_v15 main_c_5
-- ==== Kernel.lean ====
abbrev S200000x256 : Shape := ⟨2, ![200000, 256]⟩
abbrev S200000x30 : Shape := ⟨2, ![200000, 30]⟩
abbrev S8192 : Shape := ⟨1, ![8192]⟩
abbrev S8192x30 : Shape := ⟨2, ![8192, 30]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x256 : Shape := ⟨2, ![8192, 256]⟩
abbrev S245760 : Shape := ⟨1, ![245760]⟩
abbrev S245760x1 : Shape := ⟨2, ![245760, 1]⟩
abbrev S245760x256 : Shape := ⟨2, ![245760, 256]⟩
abbrev S8192x30x256 : Shape := ⟨3, ![8192, 30, 256]⟩
abbrev S128x256 : Shape := ⟨2, ![128, 256]⟩
abbrev S128x30x256 : Shape := ⟨3, ![128, 30, 256]⟩
abbrev S128 : Shape := ⟨1, ![128]⟩
abbrev S128x1x256 : Shape := ⟨3, ![128, 1, 256]⟩
abbrev S128x30 : Shape := ⟨2, ![128, 30]⟩
abbrev S128x1 : Shape := ⟨2, ![128, 1]⟩

abbrev nBuf : Space → Nat
  | .hbm => 105
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S200000x30, .i32⟩
  | .hbm, ⟨2, _⟩ => ⟨S8192, .i32⟩
  | .hbm, ⟨3, _⟩ => ⟨S8192x30, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S1, .i32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S1x1, .i32⟩
  | .hbm, ⟨17, _⟩ => ⟨S8192x1, .i32⟩
  | .hbm, ⟨18, _⟩ => ⟨S8192x1, .i1⟩
  | .hbm, ⟨19, _⟩ => ⟨S8192x1, .i1⟩
  | .hbm, ⟨20, _⟩ => ⟨S_, .i1⟩
  | .hbm, ⟨21, _⟩ => ⟨S8192, .i1⟩
  | .hbm, ⟨22, _⟩ => ⟨S8192x30, .i32⟩
  | .hbm, ⟨23, _⟩ => ⟨S8192x30, .i1⟩
  | .hbm, ⟨24, _⟩ => ⟨S_, .i32⟩
  | .hbm, ⟨25, _⟩ => ⟨S8192x30, .i32⟩
  | .hbm, ⟨26, _⟩ => ⟨S8192x30, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S1x1, .i32⟩
  | .hbm, ⟨40, _⟩ => ⟨S8192x1, .i32⟩
  | .hbm, ⟨41, _⟩ => ⟨S8192x1, .i1⟩
  | .hbm, ⟨42, _⟩ => ⟨S8192x1, .i1⟩
  | .hbm, ⟨43, _⟩ => ⟨S_, .i1⟩
  | .hbm, ⟨44, _⟩ => ⟨S8192, .i1⟩
  | .hbm, ⟨45, _⟩ => ⟨S8192x256, .f32⟩
  | .hbm, ⟨46, _⟩ => ⟨S8192x256, .i1⟩
  | .hbm, ⟨47, _⟩ => ⟨S_, .f32⟩
  | .hbm, ⟨48, _⟩ => ⟨S8192x256, .f32⟩
  | .hbm, ⟨49, _⟩ => ⟨S8192x256, .f32⟩
  | .hbm, ⟨50, _⟩ => ⟨S245760, .i32⟩
  | .hbm, ⟨51, _⟩ => ⟨S_, .i32⟩
  | .hbm, ⟨52, _⟩ => ⟨S245760, .i32⟩
  | .hbm, ⟨53, _⟩ => ⟨S245760, .i1⟩
  | .hbm, ⟨54, _⟩ => ⟨S_, .i32⟩
  | .hbm, ⟨55, _⟩ => ⟨S245760, .i32⟩
  | .hbm, ⟨56, _⟩ => ⟨S245760, .i32⟩
  | .hbm, ⟨57, _⟩ => ⟨S245760, .i32⟩
  | .hbm, ⟨58, _⟩ => ⟨S245760x1, .i32⟩
  | .hbm, ⟨59, _⟩ => ⟨S1, .i32⟩
  | .hbm, ⟨60, _⟩ => ⟨S_, .i32⟩
  | .hbm, ⟨61, _⟩ => ⟨S245760x1, .i32⟩
  | .hbm, ⟨62, _⟩ => ⟨S245760x1, .i1⟩
  | .hbm, ⟨63, _⟩ => ⟨S1x1, .i32⟩
  | .hbm, ⟨64, _⟩ => ⟨S245760x1, .i32⟩
  | .hbm, ⟨65, _⟩ => ⟨S245760x1, .i1⟩
  | .hbm, ⟨66, _⟩ => ⟨S245760x1, .i1⟩
  | .hbm, ⟨67, _⟩ => ⟨S_, .i1⟩
  | .hbm, ⟨68, _⟩ => ⟨S245760, .i1⟩
  | .hbm, ⟨69, _⟩ => ⟨S245760x256, .f32⟩
  | .hbm, ⟨70, _⟩ => ⟨S245760x256, .i1⟩
  | .hbm, ⟨71, _⟩ => ⟨S_, .f32⟩
  | .hbm, ⟨72, _⟩ => ⟨S245760x256, .f32⟩
  | .hbm, ⟨73, _⟩ => ⟨S245760x256, .f32⟩
  | .hbm, ⟨74, _⟩ => ⟨S8192x30x256, .f32⟩
  | .hbm, ⟨75, _⟩ => ⟨S245760, .i32⟩
  | .hbm, ⟨76, _⟩ => ⟨S_, .i32⟩
  | .hbm, ⟨77, _⟩ => ⟨S245760, .i32⟩
  | .hbm, ⟨78, _⟩ => ⟨S245760, .i1⟩
  | .hbm, ⟨79, _⟩ => ⟨S_, .i32⟩
  | .hbm, ⟨80, _⟩ => ⟨S245760, .i32⟩
  | .hbm, ⟨81, _⟩ => ⟨S245760, .i32⟩
  | .hbm, ⟨82, _⟩ => ⟨S245760, .i32⟩
  | .hbm, ⟨83, _⟩ => ⟨S245760x1, .i32⟩
  | .hbm, ⟨84, _⟩ => ⟨S1, .i32⟩
  | .hbm, ⟨85, _⟩ => ⟨S_, .i32⟩
  | .hbm, ⟨86, _⟩ => ⟨S245760x1, .i32⟩
  | .hbm, ⟨87, _⟩ => ⟨S245760x1, .i1⟩
  | .hbm, ⟨88, _⟩ => ⟨S1x1, .i32⟩
  | .hbm, ⟨89, _⟩ => ⟨S245760x1, .i32⟩
  | .hbm, ⟨90, _⟩ => ⟨S245760x1, .i1⟩
  | .hbm, ⟨91, _⟩ => ⟨S245760x1, .i1⟩
  | .hbm, ⟨92, _⟩ => ⟨S_, .i1⟩
  | .hbm, ⟨93, _⟩ => ⟨S245760, .i1⟩
  | .hbm, ⟨94, _⟩ => ⟨S245760x256, .f32⟩
  | .hbm, ⟨95, _⟩ => ⟨S245760x256, .i1⟩
  | .hbm, ⟨96, _⟩ => ⟨S_, .f32⟩
  | .hbm, ⟨97, _⟩ => ⟨S245760x256, .f32⟩
  | .hbm, ⟨98, _⟩ => ⟨S245760x256, .f32⟩
  | .hbm, ⟨99, _⟩ => ⟨S8192x30x256, .f32⟩
  | .hbm, ⟨100, _⟩ => ⟨S8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x30x256, .f32⟩
  | .local _ .vmem, ⟨3, _⟩ => ⟨S128x30x256, .f32⟩
  | .local _ .vmem, ⟨4, _⟩ => ⟨S128x30x256, .f32⟩
  | .local _ .vmem, ⟨5, _⟩ => ⟨S128x30x256, .f32⟩
  | .local _ .vmem, ⟨6, _⟩ => ⟨S128, .f32⟩
  | .local _ .vmem, ⟨7, _⟩ => ⟨S128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_c_4 : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v3 : Ref sig .tc := ⟨.hbm, 73, rfl⟩
abbrev main_v4 : Ref sig .tc := ⟨.hbm, 74, rfl⟩
abbrev main_v5 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v6 : Ref sig .tc := ⟨.hbm, 98, rfl⟩
abbrev main_v7 : Ref sig .tc := ⟨.hbm, 99, rfl⟩
abbrev main_v8 : Ref sig .tc := ⟨.hbm, 100, rfl⟩
abbrev main_cst : Ref sig .tc := ⟨.hbm, 101, rfl⟩
abbrev main_v9 : Ref sig .tc := ⟨.hbm, 102, rfl⟩
abbrev main_cst_0 : Ref sig .tc := ⟨.hbm, 103, rfl⟩
abbrev main_v10 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x30x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x30x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x30_0 : S8192.BroadcastsInDim S8192x30 (![0] : Fin 1 → Fin S8192x30.rank)
  bcast_S_S8192x30 : S_.BroadcastsInDim S8192x30 (![] : Fin 0 → Fin S8192x30.rank)
  bcast_S8192_S8192x256_0 : S8192.BroadcastsInDim S8192x256 (![0] : Fin 1 → Fin S8192x256.rank)
  bcast_S_S8192x256 : S_.BroadcastsInDim S8192x256 (![] : Fin 0 → Fin S8192x256.rank)
  shapeCasts_S8192x30_S245760 : S8192x30.ShapeCasts S245760
  bcast_S_S245760 : S_.BroadcastsInDim S245760 (![] : Fin 0 → Fin S245760.rank)
  bcast_S245760_S245760x1_0 : S245760.BroadcastsInDim S245760x1 (![0] : Fin 1 → Fin S245760x1.rank)
  bcast_S_S245760x1 : S_.BroadcastsInDim S245760x1 (![] : Fin 0 → Fin S245760x1.rank)
  bcast_S1x1_S245760x1_0_1 : S1x1.BroadcastsInDim S245760x1 (![0, 1] : Fin 2 → Fin S245760x1.rank)
  reducesTo_S245760x1_S245760_d1 : S245760x1.ReducesTo [1] S245760
  bcast_S245760_S245760x256_0 : S245760.BroadcastsInDim S245760x256 (![0] : Fin 1 → Fin S245760x256.rank)
  bcast_S_S245760x256 : S_.BroadcastsInDim S245760x256 (![] : Fin 0 → Fin S245760x256.rank)
  shapeCasts_S245760x256_S8192x30x256 : S245760x256.ShapeCasts S8192x30x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x30x256_S128x30x256_0_0_0 : ∀ a, (![0, 0, 0] : Fin 3 → Nat) a + S128x30x256.size a ≤ S128x30x256.size a
  h_S128x30x256 : 0 < S128x30x256.numel
  shapeCasts_S128x30x256_S128x30x256 : S128x30x256.ShapeCasts S128x30x256
  shapeCasts_S128x256_S128x1x256 : S128x256.ShapeCasts S128x1x256
  broadcasts_S128x1x256_S128x30x256 : S128x1x256.Broadcasts S128x30x256
  reduces_S128x30x256_S128x30 : S128x30x256.Reduces [2] S128x30
  reduces_S128x30_S128 : S128x30.Reduces [1] S128
  shapeCasts_S128_S128x1 : S128.ShapeCasts S128x1
  broadcasts_S128x1_S128x30 : S128x1.Broadcasts S128x30
  inb_S128_S128_0 : ∀ a, (![0] : Fin 1 → Nat) a + S128.size a ≤ S128.size a
  h_S128 : 0 < S128.numel
  reducesTo_S8192_S_d0 : S8192.ReducesTo [0] S_
  gather_S200000x30_S8192x1_S8192x30_1_0_n_n_0_1_130_wf : GatherDims.WF S200000x30 S8192x1 S8192x30 [1] [0] [] [0] [] 1 ![1, 30]
  gather_S200000x256_S8192x1_S8192x256_1_0_n_n_0_1_1256_wf : GatherDims.WF S200000x256 S8192x1 S8192x256 [1] [0] [] [0] [] 1 ![1, 256]
  gather_S200000x256_S245760x1_S245760x256_1_0_n_n_0_1_1256_wf : GatherDims.WF S200000x256 S245760x1 S245760x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x30x256.size a ≤ S8192x30x256.size a
  hwx0_1 : ∀ i : grid0.Coords, EltTy.bits .f32 = 32 ∨ (Rect.block (s := S8192x30x256) S128x30x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x30x256.size a ≤ S8192x30x256.size a
  hwx0_2 : ∀ i : grid0.Coords, EltTy.bits .f32 = 32 ∨ (Rect.block (s := S8192x30x256) S128x30x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S8192.size a
  hwx0_3 : ∀ i : grid0.Coords, EltTy.bits .f32 = 32 ∨ (Rect.block (s := S8192) S128.size (cc0_transform_3 i) (hinb0_3 i)).WholeWords (EltTy.packing .f32)

variable [Facts₀]

def gather_S200000x30_S8192x1_S8192x30_1_0_n_n_0_1_130 : GatherDims S200000x30 S8192x1 S8192x30 where
  offsetDims := [1]
  collapsedSliceDims := [0]
  operandBatchingDims := []
  startIndicesBatchingDims := []
  startIndexMap := [0]
  indexVectorDim := 1
  sliceSizes := ![1, 30]
  wf := gather_S200000x30_S8192x1_S8192x30_1_0_n_n_0_1_130_wf
def gather_S200000x256_S8192x1_S8192x256_1_0_n_n_0_1_1256 : GatherDims S200000x256 S8192x1 S8192x256 where
  offsetDims := [1]
  collapsedSliceDims := [0]
  operandBatchingDims := []
  startIndicesBatchingDims := []
  startIndexMap := [0]
  indexVectorDim := 1
  sliceSizes := ![1, 256]
  wf := gather_S200000x256_S8192x1_S8192x256_1_0_n_n_0_1_1256_wf
def gather_S200000x256_S245760x1_S245760x256_1_0_n_n_0_1_1256 : GatherDims S200000x256 S245760x1 S245760x256 where
  offsetDims := [1]
  collapsedSliceDims := [0]
  operandBatchingDims := []
  startIndicesBatchingDims := []
  startIndexMap := [0]
  indexVectorDim := 1
  sliceSizes := ![1, 256]
  wf := gather_S200000x256_S245760x1_S245760x256_1_0_n_n_0_1_1256_wf

abbrev win0_0 : Pipeline.Window sig grid0 :=
  Pipeline.Window.ofSpec (Memref.whole main_v1) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x30x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x30x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000x30 : Shape := ⟨2, ![200000, 30]⟩
abbrev S8192 : Shape := ⟨1, ![8192]⟩
abbrev S8192x30 : Shape := ⟨2, ![8192, 30]⟩
abbrev S_ : Shape := ⟨0, ![]⟩
abbrev S8192x1 : Shape := ⟨2, ![8192, 1]⟩
abbrev S8192x256 : Shape := ⟨2, ![8192, 256]⟩
abbrev S8192x30x1 : Shape := ⟨3, ![8192, 30, 1]⟩
abbrev S8192x30x256 : Shape := ⟨3, ![8192, 30, 256]⟩
abbrev S8192x1x256 : Shape := ⟨3, ![8192, 1, 256]⟩
abbrev S8192x60 : Shape := ⟨2, ![8192, 60]⟩

abbrev nBuf : Space → Nat
  | .hbm => 85
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x30, .i32⟩
  | .hbm, ⟨2, _⟩ => ⟨S8192, .i32⟩
  | .hbm, ⟨3, _⟩ => ⟨S8192x30, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x256, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x30, .i32⟩
  | .hbm, ⟨22, _⟩ => ⟨S_, .i32⟩
  | .hbm, ⟨23, _⟩ => ⟨S8192x30, .i32⟩
  | .hbm, ⟨24, _⟩ => ⟨S8192x30, .i1⟩
  | .hbm, ⟨25, _⟩ => ⟨S_, .i32⟩
  | .hbm, ⟨26, _⟩ => ⟨S8192x30, .i32⟩
  | .hbm, ⟨27, _⟩ => ⟨S8192x30, .i32⟩
  | .hbm, ⟨28, _⟩ => ⟨S8192x30, .i32⟩
  | .hbm, ⟨29, _⟩ => ⟨S8192x30x1, .i32⟩
  | .hbm, ⟨30, _⟩ => ⟨S8192x30x256, .f32⟩
  | .hbm, ⟨31, _⟩ => ⟨S_, .i32⟩
  | .hbm, ⟨32, _⟩ => ⟨S8192x30, .i32⟩
  | .hbm, ⟨33, _⟩ => ⟨S8192x30, .i1⟩
  | .hbm, ⟨34, _⟩ => ⟨S_, .i32⟩
  | .hbm, ⟨35, _⟩ => ⟨S8192x30, .i32⟩
  | .hbm, ⟨36, _⟩ => ⟨S8192x30, .i32⟩
  | .hbm, ⟨37, _⟩ => ⟨S8192x30, .i32⟩
  | .hbm, ⟨38, _⟩ => ⟨S8192x30x1, .i32⟩
  | .hbm, ⟨39, _⟩ => ⟨S8192x30x256, .f32⟩
  | .hbm, ⟨40, _⟩ => ⟨S8192x1x256, .f32⟩
  | .hbm, ⟨41, _⟩ => ⟨S8192x30x256, .f32⟩
  | .hbm, ⟨42, _⟩ => ⟨S8192x30x256, .f32⟩
  | .hbm, ⟨43, _⟩ => ⟨S8192x30x256, .f32⟩
  | .hbm, ⟨44, _⟩ => ⟨S_, .f32⟩
  | .hbm, ⟨45, _⟩ => ⟨S8192x30, .f32⟩
  | .hbm, ⟨46, _⟩ => ⟨S8192x30, .f32⟩
  | .hbm, ⟨47, _⟩ => ⟨S8192x1x256, .f32⟩
  | .hbm, ⟨48, _⟩ => ⟨S8192x30x256, .f32⟩
  | .hbm, ⟨49, _⟩ => ⟨S8192x30x256, .f32⟩
  | .hbm, ⟨50, _⟩ => ⟨S8192x30x256, .f32⟩
  | .hbm, ⟨51, _⟩ => ⟨S_, .f32⟩
  | .hbm, ⟨52, _⟩ => ⟨S8192x30, .f32⟩
  | .hbm, ⟨53, _⟩ => ⟨S8192x30, .f32⟩
  | .hbm, ⟨54, _⟩ => ⟨S8192x60, .f32⟩
  | .hbm, ⟨55, _⟩ => ⟨S8192x60, .f32⟩
  | .hbm, ⟨56, _⟩ => ⟨S_, .f32⟩
  | .hbm, ⟨57, _⟩ => ⟨S8192x60, .f32⟩
  | .hbm, ⟨58, _⟩ => ⟨S8192x60, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x60, .f32⟩
  | .hbm, ⟨66, _⟩ => ⟨S8192x60, .f32⟩
  | .hbm, ⟨67, _⟩ => ⟨S8192x60, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x60, .f32⟩
  | .hbm, ⟨72, _⟩ => ⟨S8192x60, .f32⟩
  | .hbm, ⟨73, _⟩ => ⟨S8192x30, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x30 : S_.BroadcastsInDim S8192x30 (![] : Fin 0 → Fin S8192x30.rank)
  bcast_S8192x30_S8192x30x1_0_1 : S8192x30.BroadcastsInDim S8192x30x1 (![0, 1] : Fin 2 → Fin S8192x30x1.rank)
  bcast_S8192x256_S8192x1x256_0_2 : S8192x256.BroadcastsInDim S8192x1x256 (![0, 2] : Fin 2 → Fin S8192x1x256.rank)
  bcast_S8192x1x256_S8192x30x256_0_1_2 : S8192x1x256.BroadcastsInDim S8192x30x256 (![0, 1, 2] : Fin 3 → Fin S8192x30x256.rank)
  reducesTo_S8192x30x256_S8192x30_d2 : S8192x30x256.ReducesTo [2] S8192x30
  h_S_ : 0 < S_.numel
  concatenates_S8192x30_S8192x30_S8192x60_d1 : Shape.Concatenates [S8192x30, S8192x30] S8192x60 1
  bcast_S_S8192x60 : S_.BroadcastsInDim S8192x60 (![] : Fin 0 → Fin S8192x60.rank)
  reducesTo_S8192x60_S8192_d1 : S8192x60.ReducesTo [1] S8192
  bcast_S8192x1_S8192x60_0_1 : S8192x1.BroadcastsInDim S8192x60 (![0, 1] : Fin 2 → Fin S8192x60.rank)
  slices_S8192x60_S8192x30_0_0 : S8192x60.Slices ![0, 0] S8192x30
  reducesTo_S8192x30_S8192_d1 : S8192x30.ReducesTo [1] S8192
  reducesTo_S8192_S_d0 : S8192.ReducesTo [0] S_
  gather_S200000x256_S8192x1_S8192x256_1_0_n_n_0_1_1256_wf : GatherDims.WF S200000x256 S8192x1 S8192x256 [1] [0] [] [0] [] 1 ![1, 256]
  gather_S200000x30_S8192x1_S8192x30_1_0_n_n_0_1_130_wf : GatherDims.WF S200000x30 S8192x1 S8192x30 [1] [0] [] [0] [] 1 ![1, 30]
  gather_S200000x256_S8192x30x1_S8192x30x256_2_0_n_n_0_2_1256_wf : GatherDims.WF S200000x256 S8192x30x1 S8192x30x256 [2] [0] [] [0] [] 2 ![1, 256]

variable [Facts₀]

def gather_S200000x256_S8192x1_S8192x256_1_0_n_n_0_1_1256 : GatherDims S200000x256 S8192x1 S8192x256 where
  offsetDims := [1]
  collapsedSliceDims := [0]
  operandBatchingDims := []
  startIndicesBatchingDims := []
  startIndexMap := [0]
  indexVectorDim := 1
  sliceSizes := ![1, 256]
  wf := gather_S200000x256_S8192x1_S8192x256_1_0_n_n_0_1_1256_wf
def gather_S200000x30_S8192x1_S8192x30_1_0_n_n_0_1_130 : GatherDims S200000x30 S8192x1 S8192x30 where
  offsetDims := [1]
  collapsedSliceDims := [0]
  operandBatchingDims := []
  startIndicesBatchingDims := []
  startIndexMap := [0]
  indexVectorDim := 1
  sliceSizes := ![1, 30]
  wf := gather_S200000x30_S8192x1_S8192x30_1_0_n_n_0_1_130_wf
def gather_S200000x256_S8192x30x1_S8192x30x256_2_0_n_n_0_2_1256 : GatherDims S200000x256 S8192x30x1 S8192x30x256 where
  offsetDims := [2]
  collapsedSliceDims := [0]
  operandBatchingDims := []
  startIndicesBatchingDims := []
  startIndexMap := [0]
  indexVectorDim := 2
  sliceSizes := ![1, 256]
  wf := gather_S200000x256_S8192x30x1_S8192x30x256_2_0_n_n_0_2_1256_wf

class Facts : Prop extends Facts₀ where

variable [Facts]
-- ==== Proof.Spec.lean ====
/-
  The mathematics both programs compute, stated once over the four argument arrays and importing neither program.

  A batch of 8192 samples. Sample `b` has an ANCHOR row of the table `z` (the row its cell index names), thirty
  NEIGHBOUR rows (the rows named by the anchor cell's line of the neighbour table) and thirty NEGATIVE rows (the rows
  its line of the negative-index array names). With `a k` / `b k` the negated Euclidean distances from the anchor to
  neighbour `k` / negative `k`, and `M` the largest of the sixty, the sample's loss is
  `-log (A / (A + B) + ε)`, `A = ∑ exp (a k - M)`, `B = ∑ exp (b k - M)`: the share of the softmax over all sixty
  negated distances that falls on the neighbours. The result is the mean of the 8192 losses.

  `rowLoss` writes this the way the kernel computes it (two sums, one quotient); `refRowLoss` the way the reference
  does (a softmax over the sixty joined entries, each divided by the total, the first thirty summed). They agree on
  finite rows (Proof/RowAlgebra.lean).
-/
import Idealize.ShloMosaic.PureOps.Ideal
import Idealize.ShloMosaic.PureOps.Ideal.Laws
import Idealize.ShloMosaic.Lib.ValueIdx

noncomputable section

open scoped BigOperators

namespace Cert.SoftNP

open Idealize.ShloMosaic Idealize.ShloMosaic.ValueIdx

/-- The table of latent rows, the table of neighbour indices, the batch's cell indices, its negative indices. -/
abbrev ZTab : Type := (⟨2, ![200000, 256]⟩ : Shape).Idx → EReal
abbrev KTab : Type := (⟨2, ![200000, 30]⟩ : Shape).Idx → BitVec 32
abbrev CIdx : Type := (⟨1, ![8192]⟩ : Shape).Idx → BitVec 32
abbrev NIdx : Type := (⟨2, ![8192, 30]⟩ : Shape).Idx → BitVec 32

/-- Every index word names a row of the table: as a signed integer it lies in `[0, 200000)`. -/
def InRange {s : Shape} (w : s.Idx → BitVec 32) : Prop := ∀ i, 0 ≤ (w i).toInt ∧ (w i).toInt < 200000

/-- Every entry is a real number. -/
def Finite {s : Shape} (z : s.Idx → EReal) : Prop := ∀ i, z i ≠ ⊥ ∧ z i ≠ ⊤

/-- The row an index word reads: the word as a signed integer, clamped into the table (a gather's reading; on an
    in-range word the clamp is idle). -/
def rowOf (w : BitVec 32) : Fin 200000 := ⟨min w.toInt.toNat 199999, by omega⟩

/-- Sample `b`'s anchor row. -/
def anchor (z : ZTab) (ci : CIdx) (b : Fin 8192) (d : Fin 256) : EReal := z (ix2 (rowOf (ci (ix1 b))) d)
/-- The index word of sample `b`'s neighbour `k`: the anchor cell's line of the neighbour table. -/
def nnWord (pk : KTab) (ci : CIdx) (b : Fin 8192) (k : Fin 30) : BitVec 32 := pk (ix2 (rowOf (ci (ix1 b))) k)
/-- Sample `b`'s neighbour rows. -/
def nnRow (z : ZTab) (pk : KTab) (ci : CIdx) (b : Fin 8192) (k : Fin 30) (d : Fin 256) : EReal :=
  z (ix2 (rowOf (nnWord pk ci b k)) d)
/-- Sample `b`'s negative rows. -/
def negRow (z : ZTab) (ni : NIdx) (b : Fin 8192) (k : Fin 30) (d : Fin 256) : EReal := z (ix2 (rowOf (ni (ix2 b k))) d)

/-- The smoothing constant under the logarithm: the f32 word both programs carry (never evaluated). -/
def eps : EReal := Ideal.ofBits .f32 0x322BCC77#32

/-! ## One sample, as the kernel computes it -/

/-- The negated distance from `x` to `y`, as the kernel writes it: `(0 - √(∑ (y - x)²)) · 1`. -/
def negDist (x y : Fin 256 → EReal) : EReal := (0 - Ideal.sqrt (∑ d, (y d - x d) * (y d - x d))) * 1

/-- The largest of thirty entries (from `-∞`). -/
def rowMax (a : Fin 30 → EReal) : EReal := (Finset.univ : Finset (Fin 30)).fold max ⊥ a

/-- One sample's loss from its anchor `x`, neighbours `P` and negatives `N`, the kernel's way. -/
def rowLoss (x : Fin 256 → EReal) (P N : Fin 30 → Fin 256 → EReal) : EReal :=
  let a : Fin 30 → EReal := fun k => negDist x (P k)
  let b : Fin 30 → EReal := fun k => negDist x (N k)
  let M : EReal := max (rowMax a) (rowMax b)
  let A : EReal := ∑ k, Ideal.exp (a k - M)
  let B : EReal := ∑ k, Ideal.exp (b k - M)
  0 - Ideal.log (Ideal.div A (A + B) + eps)

/-! ## One sample, as the reference computes it -/

/-- The negated distance as the reference writes it: `-(√(0 + ∑ (y - x)²)) / 1`. -/
def refNegDist (x y : Fin 256 → EReal) : EReal := Ideal.div (-(Ideal.sqrt (0 + ∑ d, (y d - x d) * (y d - x d)))) 1

/-- The sixty negated distances joined: neighbours first, negatives after. -/
def joined (x : Fin 256 → EReal) (P N : Fin 30 → Fin 256 → EReal) : Fin 60 → EReal :=
  Fin.append (fun k => refNegDist x (P k)) (fun k => refNegDist x (N k))

/-- One sample's loss the reference's way: the softmax of the sixty joined entries, its first thirty shares summed. -/
def refRowLoss (x : Fin 256 → EReal) (P N : Fin 30 → Fin 256 → EReal) : EReal :=
  let c : Fin 60 → EReal := joined x P N
  let M : EReal := max ⊥ ((Finset.univ : Finset (Fin 60)).fold max ⊥ c)
  let T : EReal := 0 + ∑ j, Ideal.exp (c j - M)
  Neg.neg (Ideal.log ((0 + ∑ k : Fin 30, Ideal.div (Ideal.exp (c (Fin.castAdd 30 k) - M)) T) + eps))

/-! ## The batch -/

/-- The 8192 losses, the kernel's way, as one function of the four argument arrays. -/
def lossVec (z : ZTab) (pk : KTab) (ci : CIdx) (ni : NIdx) : (⟨1, ![8192]⟩ : Shape).Idx → EReal :=
  fun i => rowLoss (anchor z ci (i 0)) (nnRow z pk ci (i 0)) (negRow z ni (i 0))

/-- The same the reference's way. -/
def refLossVec (z : ZTab) (pk : KTab) (ci : CIdx) (ni : NIdx) : (⟨1, ![8192]⟩ : Shape).Idx → EReal :=
  fun i => refRowLoss (anchor z ci (i 0)) (nnRow z pk ci (i 0)) (negRow z ni (i 0))

end Cert.SoftNP

end
-- ==== Proof.Mean.lean ====
/-
  The last step both programs share: the mean of the 8192 losses, written as the host's sum from zero followed by
  the host's quotient by the f32 word of 8192.
-/
import proofs.«403241_j17892833755271_3_alg».proof.Proof.Spec
import Idealize.ShloMosaic.PureOps

noncomputable section

namespace Cert.SoftNP

open Idealize.ShloMosaic

theorem reduces_batch : (⟨1, ![8192]⟩ : Shape).ReducesTo [0] ⟨0, ![]⟩ := by decide
theorem scalar_pos : 0 < (⟨0, ![]⟩ : Shape).numel := by decide

/-- The mean of the batch's losses, as both programs compute it. -/
def meanOf (L : (⟨1, ![8192]⟩ : Shape).Idx → EReal) : (⟨0, ![]⟩ : Shape).Idx → EReal :=
  Host.divf (F := Ideal) (φ := .f32)
    (Host.reduceAdd (F := Ideal) (φ := .f32) L (constant (F := Ideal) ⟨0, ![]⟩ .f32 0x00000000#32) reduces_batch scalar_pos)
    (constant (F := Ideal) ⟨0, ![]⟩ .f32 0x46000000#32)

end Cert.SoftNP

end
-- ==== Proof.PreDecode.lean ====
/-
  What the precondition says, element by element: the four conjuncts of the printed predicate — every entry of the
  table below `+∞` in absolute value, every word of the three index arrays in `[0, 200000)` as a signed integer —
  read off the all-ones value of their conjunction.
-/
import proofs.«403241_j17892833755271_3_alg».proof.Pre_finite_inputs
import proofs.«403241_j17892833755271_3_alg».proof.Proof.Gen.Pre_finite_inputs
import proofs.«403241_j17892833755271_3_alg».proof.Proof.Spec
import Idealize.ShloMosaic.Lib.ReduceAll
import Idealize.ShloMosaic.Lib.StableHlo.Predicate

noncomputable section

namespace Cert.SoftNP.PreDecode

open Idealize.ShloMosaic Idealize.ShloMosaic.ValueIdx Cert.SoftNP

/-- The f32 word `0x7F800000` is `+∞`. -/
theorem ofBits_inf : Ideal.ofBits .f32 0x7F800000#32 = ⊤ := by simp [Ideal.ofBits, Ideal.ieee]

/-- An entry whose absolute value compares below `+∞` is a real number. -/
theorem finite_of_abs_lt (x : EReal)
    (hx : Ideal.cmp .olt (max x (-x)) (Ideal.ofBits .f32 0x7F800000#32) = 1#1) : x ≠ ⊥ ∧ x ≠ ⊤ := by
  rw [ofBits_inf] at hx
  simp only [Ideal.cmp, StableHlo.Predicate.ofBool_eq_one_iff, decide_eq_true_eq] at hx
  constructor
  · rintro rfl
    simp at hx
  · rintro rfl
    simp at hx

/-- A word at or above `0` and below `200000`, both signed, is in range. -/
theorem inRange_of_cmp (w : BitVec 32)
    (hw : IntOp.andi (IntOp.cmpi .sge w 0#32) (IntOp.cmpi .slt w 200000#32) = 1#1) :
    0 ≤ w.toInt ∧ w.toInt < 200000 := by
  obtain ⟨h0, h1⟩ := IntOp.andi_eq_one.1 hw
  have h0' := IntOp.cmpi_sge.1 h0
  have h1' := IntOp.cmpi_slt.1 h1
  have e0 : (0#32 : BitVec 32).toInt = 0 := by decide
  have e1 : (200000#32 : BitVec 32).toInt = 200000 := by decide
  rw [e0] at h0'
  rw [e1] at h1'
  exact ⟨h0', h1'⟩

/-- The precondition all ones: the table is finite and every index word is in range. -/
theorem of_fn (z : ZTab) (pk : KTab) (ci : CIdx) (ni : NIdx)
    (h : Cert.Pre_finite_inputs.fn (F := Ideal) z pk ci ni = fun _ => 1#1) :
    Finite z ∧ InRange pk ∧ InRange ci ∧ InRange ni := by
  have e := congrFun h ValueIdx.ix0
  dsimp only [Cert.Pre_finite_inputs.fn, Cert.Pre_finite_inputs.fn_part1] at e
  haveI : Subsingleton Cert.Pre_finite_inputs.S_.Idx := ⟨fun a b => funext fun d => d.elim0⟩
  obtain ⟨e3, eD⟩ := IntOp.andi_eq_one.1 e
  obtain ⟨e2, eC⟩ := IntOp.andi_eq_one.1 e3
  obtain ⟨eA, eB⟩ := IntOp.andi_eq_one.1 e2
  refine ⟨fun i => ?_, fun i => ?_, fun i => ?_, fun i => ?_⟩
  · exact finite_of_abs_lt (z i) (Host.reduce_andi_all _ _ _ _ _ eA i)
  · exact inRange_of_cmp (pk i) (Host.reduce_andi_all _ _ _ _ _ eB i)
  · exact inRange_of_cmp (ci i) (Host.reduce_andi_all _ _ _ _ _ eC i)
  · exact inRange_of_cmp (ni i) (Host.reduce_andi_all _ _ _ _ _ eD i)

end Cert.SoftNP.PreDecode

end
-- ==== Proof.LibGatherRows.lean ====
/-
  A row gather read at an index. `table[idx]` over a table of rows `[N, D]` prints as a `stablehlo.gather` whose start
  indices carry one row number each (a trailing axis of extent one), whose row axis is collapsed and start-indexed, and
  whose one offset axis is the row's own axis: the result at `(p, q)` (or `(p, r, q)`) is the table at row
  `idx[p]` (`idx[p, r]`) read as a signed integer and clamped into `[0, N - 1]`, column `q`.
-/
import Idealize.ShloMosaic.PureOps.ShapeOps
import Idealize.ShloMosaic.Lib.ValueIdx

namespace Cert.Lib.GatherRows

open Idealize.ShloMosaic Idealize.ShloMosaic.ValueIdx

/-- On the result `[n, D]` with offset axis 1, every batch axis reads the first coordinate. -/
private theorem batch2 {N D n : Nat} (d : GatherDims ⟨2, ![N, D]⟩ ⟨2, ![n, 1]⟩ ⟨2, ![n, D]⟩)
    (hoff : d.offsetDims = [1]) (p : Fin n) (q : Fin D) (X : Fin 2) (hX : X ∈ d.batchDims) :
    (ix2 p q X).val = p.val := by
  have h : X ∉ d.offsetDims := by
    simpa [GatherDims.batchDims, Shape.kept, List.mem_filter, List.mem_finRange] using hX
  rw [hoff] at h
  match X with
  | ⟨0, _⟩ => rfl
  | ⟨1, _⟩ => exact absurd (List.mem_singleton.mpr rfl) h

/-- On the result `[n, D]` with offset axis 1, every offset axis reads the second coordinate. -/
private theorem off2 {N D n : Nat} (d : GatherDims ⟨2, ![N, D]⟩ ⟨2, ![n, 1]⟩ ⟨2, ![n, D]⟩)
    (hoff : d.offsetDims = [1]) (p : Fin n) (q : Fin D) (X : Fin 2) (hX : X ∈ d.offsetDims) :
    (ix2 p q X).val = q.val := by
  rw [hoff] at hX
  obtain rfl : X = 1 := List.mem_singleton.mp hX
  rfl

/-- The start-indices index read for result `(p, q)`: `(p, 0)`. -/
private theorem siIdx2 {N D n : Nat} (d : GatherDims ⟨2, ![N, D]⟩ ⟨2, ![n, 1]⟩ ⟨2, ![n, D]⟩)
    (hoff : d.offsetDims = [1]) (hivd : d.indexVectorDim = 1) (p : Fin n) (q : Fin D)
    (c : Fin d.startIndexMap.length) : d.siIdx (ix2 p q) c = ix2 p 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact batch2 d hoff p q _ (List.getElem_mem _)
  | ⟨1, _⟩ =>
    show (_ : Fin 1) = _
    exact Subsingleton.elim _ _

/-- Rows taken at a COLUMN of row numbers `[n, 1]`: result `(p, q)` is row `idx[p, 0]` (signed, clamped), column `q`. -/
theorem gather_rows2 {α : Type} {N D n w : Nat} (hN : 0 < N)
    (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) :
    Host.gather d x idx (ix2 p q) = x (ix2 ⟨min (idx (ix2 p 0)).toInt.toNat (N - 1), by omega⟩ q) := by
  unfold Host.gather
  congr 1
  funext a
  have hb : ∀ a : Fin 2, a ∉ d.operandBatchingDims := by intro a; rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0
      = min (idx (ix2 p 0)).toInt.toNat (N - 1)
    rw [d.batchCoord_eq_zero _ _ (hb 0), d.offCoord_eq_zero _ _ hk]
    simp only [Nat.add_zero]
    unfold GatherDims.start
    rw [dif_pos hm, siIdx2 d hoff hivd p q]
    show min (idx (ix2 p 0)).toInt.toNat (N - d.sliceSizes 0) = _
    rw [hsl]
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1), Nat.add_zero]
    unfold GatherDims.start GatherDims.offCoord
    rw [dif_neg hm, dif_pos hk, Nat.zero_add]
    exact off2 d hoff p q _ (List.getElem_mem _)

/-- With offset axis 2 and the index vector on axis 2, the batch axis paired with start-indices axis `b` is `b`. -/
private theorem pair3 (l l' : List (Fin 3)) (hl : l = [0, 1]) (hl' : l' = [0, 1]) (b : Fin 3) (hb : b ∈ l')
    (h : l'.idxOf b < l.length) : l[l'.idxOf b]'h = b := by
  subst hl hl'
  rcases List.mem_pair.mp hb with rfl | rfl
  · rfl
  · rfl

/-- On the result `[n, k, D]` with offset axis 2, every offset axis reads the third coordinate. -/
private theorem off3 {N D n k : Nat} (d : GatherDims ⟨2, ![N, D]⟩ ⟨3, ![n, k, 1]⟩ ⟨3, ![n, k, D]⟩)
    (hoff : d.offsetDims = [2]) (p : Fin n) (r : Fin k) (q : Fin D) (X : Fin 3) (hX : X ∈ d.offsetDims) :
    (ix3 p r q X).val = q.val := by
  rw [hoff] at hX
  obtain rfl : X = 2 := List.mem_singleton.mp hX
  rfl

/-- The start-indices index read for result `(p, r, q)`: `(p, r, 0)`. -/
private theorem siIdx3 {N D n k : Nat} (d : GatherDims ⟨2, ![N, D]⟩ ⟨3, ![n, k, 1]⟩ ⟨3, ![n, k, D]⟩)
    (hoff : d.offsetDims = [2]) (hivd : d.indexVectorDim = 2) (p : Fin n) (r : Fin k) (q : Fin D)
    (c : Fin d.startIndexMap.length) : d.siIdx (ix3 p r q) c = ix3 p r 0 := by
  have hbd : d.batchDims = [0, 1] := by
    show (List.finRange 3).filter (fun x => decide (x ∉ d.offsetDims)) = [0, 1]
    rw [hoff]; rfl
  have hsk : d.siKept = [0, 1] := by
    show (List.finRange 3).filter (fun x => decide (x.val ≠ d.indexVectorDim)) = [0, 1]
    rw [hivd]; rfl
  funext b
  match b with
  | ⟨0, _⟩ =>
    unfold GatherDims.siIdx
    rw [dif_neg (by rw [hivd]; exact Nat.zero_ne_add_one 1)]
    unfold GatherDims.siCoord
    apply Fin.ext
    simp only [Fin.val_cast]
    rw [pair3 d.batchDims d.siKept hbd hsk ⟨0, _⟩ (by rw [hsk]; exact List.mem_cons_self)]
  | ⟨1, _⟩ =>
    unfold GatherDims.siIdx
    rw [dif_neg (by rw [hivd]; exact Nat.ne_of_lt Nat.one_lt_two)]
    unfold GatherDims.siCoord
    apply Fin.ext
    simp only [Fin.val_cast]
    rw [pair3 d.batchDims d.siKept hbd hsk ⟨1, _⟩ (by rw [hsk]; exact List.mem_cons_of_mem _ List.mem_cons_self)]
  | ⟨2, _⟩ =>
    show (_ : Fin 1) = _
    exact Subsingleton.elim _ _

/-- Rows taken at a RECTANGLE of row numbers `[n, k, 1]`: result `(p, r, q)` is row `idx[p, r, 0]` (signed, clamped), column `q`. -/
theorem gather_rows3 {α : Type} {N D n k w : Nat} (hN : 0 < N)
    (d : GatherDims ⟨2, ![N, D]⟩ ⟨3, ![n, k, 1]⟩ ⟨3, ![n, k, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![n, k, 1]⟩ w) (p : Fin n) (r : Fin k) (q : Fin D) :
    Host.gather d x idx (ix3 p r q) = x (ix2 ⟨min (idx (ix3 p r 0)).toInt.toNat (N - 1), by omega⟩ q) := by
  unfold Host.gather
  congr 1
  funext a
  have hb : ∀ a : Fin 2, a ∉ d.operandBatchingDims := by intro a; rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix3 p r q) idx 0 + d.batchCoord (ix3 p r q) 0 + d.offCoord (ix3 p r q) 0
      = min (idx (ix3 p r 0)).toInt.toNat (N - 1)
    rw [d.batchCoord_eq_zero _ _ (hb 0), d.offCoord_eq_zero _ _ hk]
    simp only [Nat.add_zero]
    unfold GatherDims.start
    rw [dif_pos hm, siIdx3 d hoff hivd p r q]
    show min (idx (ix3 p r 0)).toInt.toNat (N - d.sliceSizes 0) = _
    rw [hsl]
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix3 p r q) idx 1 + d.batchCoord (ix3 p r q) 1 + d.offCoord (ix3 p r q) 1 = q.val
    rw [d.batchCoord_eq_zero _ _ (hb 1), Nat.add_zero]
    unfold GatherDims.start GatherDims.offCoord
    rw [dif_neg hm, dif_pos hk, Nat.zero_add]
    exact off3 d hoff p r q _ (List.getElem_mem _)

end Cert.Lib.GatherRows
-- ==== Proof.KernelHost.lean ====
/-
  The three arrays the kernel region is launched on, read at an index: the anchor rows, the neighbour rows and the
  negative rows. Each is a take of the table's rows at an index array; a take marks an out-of-range position and
  fills it, and on in-range indices the mark is set everywhere, so the take is the plain row gather.
-/
import proofs.«403241_j17892833755271_3_alg».proof.KernelIdeal
import proofs.«403241_j17892833755271_3_alg».proof.Proof.Gen.KernelIdeal.Frame
import proofs.«403241_j17892833755271_3_alg».proof.Proof.Spec
import proofs.«403241_j17892833755271_3_alg».proof.Proof.LibGatherRows
import Idealize.ShloMosaic.Lib.StableHlo.Run
import Idealize.ShloMosaic.Lib.Pipeline.Value
import Idealize.ShloMosaic.Lib.ReduceAll
import Idealize.ShloMosaic.Lib.StableHlo.Predicate

set_option maxRecDepth 16384

noncomputable section

namespace Cert.KernelIdeal.HostPrefix

open Cert.KernelIdeal Cert.KernelIdeal.Gen Idealize.ShloMosaic Idealize.ShloMosaic.TcCoe Idealize.SL.Sem
open Idealize.ShloMosaic.ValueIdx Cert.SoftNP

variable (m : (ℓ : Loc nD τ sig) → Buf (Elt Ideal) ℓ) (c : Dev nD)

/-- The four argument arrays as launched. -/
abbrev argZ : ZTab := m ((c.tc : Thread nD τ).loc main_arg0)
abbrev argK : KTab := m ((c.tc : Thread nD τ).loc main_arg1)
abbrev argC : CIdx := m ((c.tc : Thread nD τ).loc main_arg2)
abbrev argN : NIdx := m ((c.tc : Thread nD τ).loc main_arg3)

/-! ## A take of rows, read at an index -/

/-- A signed word that is not negative is not wrapped. -/
theorem wrap_eq (w : BitVec 32) (h : 0 ≤ w.toInt) :
    Scalar.select (IntOp.cmpi .slt w 0#32) (IntOp.addi w 200000#32) w = w := by
  have h0 : (0#32 : BitVec 32).toInt = 0 := by decide
  have hd : decide (w.toInt < (0#32 : BitVec 32).toInt) = false := decide_eq_false (by rw [h0]; omega)
  have hc : IntOp.cmpi .slt w 0#32 = 0#1 := by
    show BitVec.ofBool (w.slt 0#32) = 0#1
    unfold BitVec.slt; rw [hd]; rfl
  rw [hc, select_zero]

/-- A signed word in `[0, 200000)` passes both bound tests. -/
theorem inb_eq (w : BitVec 32) (h : 0 ≤ w.toInt ∧ w.toInt < 200000) :
    IntOp.andi (IntOp.cmpi .sge w 0#32) (IntOp.cmpi .sle w 199999#32) = 1#1 := by
  have h0 : (0#32 : BitVec 32).toInt = 0 := by decide
  have h1 : (199999#32 : BitVec 32).toInt = 199999 := by decide
  have hd0 : decide ((0#32 : BitVec 32).toInt ≤ w.toInt) = true := decide_eq_true (by rw [h0]; exact h.1)
  have hd1 : decide (w.toInt ≤ (199999#32 : BitVec 32).toInt) = true := decide_eq_true (by rw [h1]; omega)
  have hc0 : IntOp.cmpi .sge w 0#32 = 1#1 := by
    show BitVec.ofBool ((0#32 : BitVec 32).sle w) = 1#1
    unfold BitVec.sle; rw [hd0]; rfl
  have hc1 : IntOp.cmpi .sle w 199999#32 = 1#1 := by
    show BitVec.ofBool (w.sle 199999#32) = 1#1
    unfold BitVec.sle; rw [hd1]; rfl
  rw [hc0, hc1]; rfl

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- A reduce by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

section Take
variable {α : Type} {n D : Nat}
variable (b0 : S_.BroadcastsInDim ⟨1, ![n]⟩ (![] : Fin 0 → Fin 1))
  (b1 : (⟨1, ![n]⟩ : Shape).BroadcastsInDim ⟨2, ![n, 1]⟩ (![0] : Fin 1 → Fin 2))
  (b2 : S_.BroadcastsInDim ⟨2, ![n, 1]⟩ (![] : Fin 0 → Fin 2))
  (b3 : S1.BroadcastsInDim S1x1 (![1] : Fin 1 → Fin 2))
  (b4 : S1x1.BroadcastsInDim ⟨2, ![n, 1]⟩ (![0, 1] : Fin 2 → Fin 2))
  (r : (⟨2, ![n, 1]⟩ : Shape).ReducesTo [1] ⟨1, ![n]⟩) (h0 : 0 < S_.numel)
  (b5 : (⟨1, ![n]⟩ : Shape).BroadcastsInDim ⟨2, ![n, D]⟩ (![0] : Fin 1 → Fin 2))

/-- The row numbers a take reads, as a column: each index word, a negative one moved up by the table's length. -/
def takeCol (idx : IVec ⟨1, ![n]⟩ 32) : IVec ⟨2, ![n, 1]⟩ 32 :=
  broadcastInDim ⟨2, ![n, 1]⟩ ![0] b1
    (select (cmpi .slt idx (broadcastInDim ⟨1, ![n]⟩ ![] b0 (constantI S_ 32 0#32)))
      (addi idx (broadcastInDim ⟨1, ![n]⟩ ![] b0 (constantI S_ 32 200000#32))) idx)

/-- The mark of the positions whose row number is inside the table. -/
def takeMark (W : IVec ⟨2, ![n, 1]⟩ 32) : IVec ⟨1, ![n]⟩ 1 :=
  Host.reduce IntOp.andi
    (andi (cmpi .sge W (broadcastInDim ⟨2, ![n, 1]⟩ ![] b2 (constantI S_ 32 0#32)))
      (cmpi .sle W (broadcastInDim ⟨2, ![n, 1]⟩ ![0, 1] b4 (broadcastInDim S1x1 ![1] b3 (constantI S1 32 199999#32)))))
    (constantI S_ 1 1#1) r h0

/-- The take: the gathered rows where marked, the fill elsewhere. -/
def takeRows (d : GatherDims ⟨2, ![200000, D]⟩ ⟨2, ![n, 1]⟩ ⟨2, ![n, D]⟩)
    (z : (⟨2, ![200000, D]⟩ : Shape).Idx → α) (idx : IVec ⟨1, ![n]⟩ 32) (fill : (⟨2, ![n, D]⟩ : Shape).Idx → α) :
    (⟨2, ![n, D]⟩ : Shape).Idx → α :=
  select (broadcastInDim ⟨2, ![n, D]⟩ ![0] b5 (takeMark b2 b3 b4 r h0 (takeCol b0 b1 idx)))
    (Host.gather d z (takeCol b0 b1 idx)) fill

/-- On in-range words the column holds the words themselves. -/
theorem takeCol_apply (idx : IVec ⟨1, ![n]⟩ 32) (hin : InRange idx) (i : (⟨2, ![n, 1]⟩ : Shape).Idx) :
    takeCol b0 b1 idx i = idx (ix1 (i 0)) := by
  unfold takeCol
  rw [broadcastInDim_apply _ b1 _ i (ix1 (i 0)) (fun a => match a with
    | ⟨0, _⟩ => by
      show (i 0).val = if n = 1 then 0 else (i 0).val
      have := idx2_lt0 i
      split <;> omega)]
  exact wrap_eq _ (hin _).1

/-- On in-range words every position is marked. -/
theorem takeMark_apply (W : IVec ⟨2, ![n, 1]⟩ 32) (hW : InRange W) (j : (⟨1, ![n]⟩ : Shape).Idx) :
    takeMark b2 b3 b4 r h0 W j = 1#1 := by
  unfold takeMark
  exact reduce_andi_ones _ _ r h0 (fun i => inb_eq (W i) (hW i)) (fun _ => rfl) j

/-- On in-range words the take is the plain reading of the table's rows. -/
theorem takeRows_apply (d : GatherDims ⟨2, ![200000, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (z : (⟨2, ![200000, D]⟩ : Shape).Idx → α) (idx : IVec ⟨1, ![n]⟩ 32) (fill : (⟨2, ![n, D]⟩ : Shape).Idx → α)
    (hin : InRange idx) (p : Fin n) (q : Fin D) :
    takeRows b0 b1 b2 b3 b4 r h0 b5 d z idx fill (ix2 p q) = z (ix2 (rowOf (idx (ix1 p))) q) := by
  have hW : InRange (takeCol b0 b1 idx) := fun i => by rw [takeCol_apply b0 b1 idx hin i]; exact hin _
  have hm : broadcastInDim ⟨2, ![n, D]⟩ ![0] b5 (takeMark b2 b3 b4 r h0 (takeCol b0 b1 idx)) (ix2 p q) = 1#1 := by
    rw [broadcastInDim_apply _ b5 _ (ix2 p q) (ix1 p) (fun a => match a with
      | ⟨0, _⟩ => by
        show p.val = if n = 1 then 0 else p.val
        have := p.isLt
        split <;> omega)]
    exact takeMark_apply b2 b3 b4 r h0 _ hW _
  unfold takeRows
  rw [select_apply, hm, select_one,
    Cert.Lib.GatherRows.gather_rows2 (by decide) d hoff hcoll hob hsim hivd z _ p q]
  refine congrArg z (congrArg (fun k => ix2 k q) (Fin.ext ?_))
  show min (takeCol b0 b1 idx (ix2 p 0)).toInt.toNat (200000 - 1) = min (idx (ix1 p)).toInt.toNat 199999
  rw [takeCol_apply b0 b1 idx hin]
  rfl

end Take

/-! ## The host operations, stretch by stretch -/

theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => simp only [List.cons_append, StableHlo.after_cons, ih]

/-- The contents at the region's entry: the seven stretches run one after the other. -/
theorem V0_eq : V0 m c = StableHlo.after hostOps0_6 (StableHlo.after hostOps0_5 (StableHlo.after hostOps0_4 (StableHlo.after hostOps0_3
    (StableHlo.after hostOps0_2 (StableHlo.after hostOps0_1 (StableHlo.after hostOps0 (fun b => m (c, b)))))))) := by
  dsimp only [Gen.V0]
  simp only [List.flatten_cons, List.flatten_nil, List.append_nil, after_append]

section Stretches
variable (X : Valuation τ sig (Elt Ideal))

set_option maxHeartbeats 1000000 in
/-- The first take writes the neighbour words: the neighbour table's rows at the cell indices. -/
theorem take0_eq : (StableHlo.after hostOps0 X (Proc.devRef .tc main_v0) : S8192x30.Idx → BitVec 32)
    = takeRows (n := 8192) (D := 30) bcast_S_S8192 bcast_S8192_S8192x1_0 bcast_S_S8192x1 bcast_S1_S1x1_1 bcast_S1x1_S8192x1_0_1
        reducesTo_S8192x1_S8192_d1 h_S_ bcast_S8192_S8192x30_0 gather_S200000x30_S8192x1_S8192x30_1_0_n_n_0_1_130
        (X (Proc.devRef .tc main_arg1)) (X (Proc.devRef .tc main_arg2)) (broadcastInDim S8192x30 ![] bcast_S_S8192x30 (constantI S_ 32 2147483648#32)) := by
  dsimp only [Gen.hostOps0]
  after_results
  simp only [StableHlo.TRef.ofBuf, StableHlo.TRef.toBuf, cast_eq]
  unfold takeRows takeMark takeCol
  rfl

set_option maxHeartbeats 1000000 in
/-- The second take writes the anchor rows: the table's rows at the cell indices. -/
theorem take1_eq : (StableHlo.after hostOps0_1 X (Proc.devRef .tc main_v1) : S8192x256.Idx → EReal)
    = takeRows (n := 8192) (D := 256) bcast_S_S8192 bcast_S8192_S8192x1_0 bcast_S_S8192x1 bcast_S1_S1x1_1 bcast_S1x1_S8192x1_0_1
        reducesTo_S8192x1_S8192_d1 h_S_ bcast_S8192_S8192x256_0 gather_S200000x256_S8192x1_S8192x256_1_0_n_n_0_1_1256
        (X (Proc.devRef .tc main_arg0)) (X (Proc.devRef .tc main_arg2)) (broadcastInDim S8192x256 ![] bcast_S_S8192x256 (constant (F := Ideal) S_ .f32 0x7FC00000#32)) := by
  dsimp only [Gen.hostOps0_1]
  after_results
  simp only [StableHlo.TRef.ofBuf, StableHlo.TRef.toBuf, cast_eq]
  unfold takeRows takeMark takeCol
  rfl

/-- The neighbour words laid out as one line. -/
theorem resh2_eq : (StableHlo.after hostOps0_2 X (Proc.devRef .tc main_v2) : S245760.Idx → BitVec 32)
    = shapeCast S245760 (X (Proc.devRef .tc main_v0) : S8192x30.Idx → BitVec 32) shapeCasts_S8192x30_S245760 := by
  dsimp only [Gen.hostOps0_2]
  after_results
  rfl

set_option maxHeartbeats 1000000 in
/-- The third take: the table's rows at the line of neighbour words. -/
theorem take3_eq : (StableHlo.after hostOps0_3 X (Proc.devRef .tc main_v3) : S245760x256.Idx → EReal)
    = takeRows (n := 245760) (D := 256) bcast_S_S245760 bcast_S245760_S245760x1_0 bcast_S_S245760x1 bcast_S1_S1x1_1 bcast_S1x1_S245760x1_0_1
        reducesTo_S245760x1_S245760_d1 h_S_ bcast_S245760_S245760x256_0 gather_S200000x256_S245760x1_S245760x256_1_0_n_n_0_1_1256
        (X (Proc.devRef .tc main_arg0)) (X (Proc.devRef .tc main_v2)) (broadcastInDim S245760x256 ![] bcast_S_S245760x256 (constant (F := Ideal) S_ .f32 0x7FC00000#32)) := by
  dsimp only [Gen.hostOps0_3]
  after_results
  simp only [StableHlo.TRef.ofBuf, StableHlo.TRef.toBuf, cast_eq]
  unfold takeRows takeMark takeCol
  rfl

/-- Those rows laid out sample by sample. -/
theorem resh4a_eq : (StableHlo.after hostOps0_4 X (Proc.devRef .tc main_v4) : S8192x30x256.Idx → EReal)
    = shapeCast S8192x30x256 (X (Proc.devRef .tc main_v3) : S245760x256.Idx → EReal) shapeCasts_S245760x256_S8192x30x256 := by
  dsimp only [Gen.hostOps0_4]
  after_results
  rfl

/-- The negative indices laid out as one line. -/
theorem resh4b_eq : (StableHlo.after hostOps0_4 X (Proc.devRef .tc main_v5) : S245760.Idx → BitVec 32)
    = shapeCast S245760 (X (Proc.devRef .tc main_arg3) : S8192x30.Idx → BitVec 32) shapeCasts_S8192x30_S245760 := by
  dsimp only [Gen.hostOps0_4]
  after_results
  rfl

set_option maxHeartbeats 1000000 in
/-- The fourth take: the table's rows at the line of negative indices. -/
theorem take5_eq : (StableHlo.after hostOps0_5 X (Proc.devRef .tc main_v6) : S245760x256.Idx → EReal)
    = takeRows (n := 245760) (D := 256) bcast_S_S245760 bcast_S245760_S245760x1_0 bcast_S_S245760x1 bcast_S1_S1x1_1 bcast_S1x1_S245760x1_0_1
        reducesTo_S245760x1_S245760_d1 h_S_ bcast_S245760_S245760x256_0 gather_S200000x256_S245760x1_S245760x256_1_0_n_n_0_1_1256
        (X (Proc.devRef .tc main_arg0)) (X (Proc.devRef .tc main_v5)) (broadcastInDim S245760x256 ![] bcast_S_S245760x256 (constant (F := Ideal) S_ .f32 0x7FC00000#32)) := by
  dsimp only [Gen.hostOps0_5]
  after_results
  simp only [StableHlo.TRef.ofBuf, StableHlo.TRef.toBuf, cast_eq]
  unfold takeRows takeMark takeCol
  rfl

/-- Those rows laid out sample by sample. -/
theorem resh6_eq : (StableHlo.after hostOps0_6 X (Proc.devRef .tc main_v7) : S8192x30x256.Idx → EReal)
    = shapeCast S8192x30x256 (X (Proc.devRef .tc main_v6) : S245760x256.Idx → EReal) shapeCasts_S245760x256_S8192x30x256 := by
  dsimp only [Gen.hostOps0_6]
  after_results
  rfl

end Stretches

/-! ## What a stretch leaves alone -/

/-- No operation of a literal stretch writes a given reference. -/
local macro "not_written" : tactic => `(tactic| (
  refine List.forall_iff_forall_mem.mp ?_
  simp only [Gen.hostOps0, Gen.hostOps0_1, Gen.hostOps0_2, Gen.hostOps0_3, Gen.hostOps0_4, Gen.hostOps0_5, Gen.hostOps0_6, List.Forall,
    StableHlo.nullary_writes, StableHlo.unary_writes, StableHlo.binary_writes, StableHlo.ternary_writes, StableHlo.reshape_writes,
    Finset.mem_singleton]
  repeat' apply And.intro
  all_goals exact StableHlo.devRef_ne_of_ne (by decide)))

section Keeps
variable (X : Valuation τ sig (Elt Ideal))
theorem keep6_v1 : StableHlo.after hostOps0_6 X (Proc.devRef .tc main_v1) = X (Proc.devRef .tc main_v1) :=
  StableHlo.after_of_forall_not_mem _ _ (by not_written)
theorem keep5_v1 : StableHlo.after hostOps0_5 X (Proc.devRef .tc main_v1) = X (Proc.devRef .tc main_v1) :=
  StableHlo.after_of_forall_not_mem _ _ (by not_written)
theorem keep4_v1 : StableHlo.after hostOps0_4 X (Proc.devRef .tc main_v1) = X (Proc.devRef .tc main_v1) :=
  StableHlo.after_of_forall_not_mem _ _ (by not_written)
theorem keep3_v1 : StableHlo.after hostOps0_3 X (Proc.devRef .tc main_v1) = X (Proc.devRef .tc main_v1) :=
  StableHlo.after_of_forall_not_mem _ _ (by not_written)
theorem keep2_v1 : StableHlo.after hostOps0_2 X (Proc.devRef .tc main_v1) = X (Proc.devRef .tc main_v1) :=
  StableHlo.after_of_forall_not_mem _ _ (by not_written)
theorem keep0_arg0 : StableHlo.after hostOps0 X (Proc.devRef .tc main_arg0) = X (Proc.devRef .tc main_arg0) :=
  StableHlo.after_of_forall_not_mem _ _ (by not_written)
theorem keep1_arg0 : StableHlo.after hostOps0_1 X (Proc.devRef .tc main_arg0) = X (Proc.devRef .tc main_arg0) :=
  StableHlo.after_of_forall_not_mem _ _ (by not_written)
theorem keep2_arg0 : StableHlo.after hostOps0_2 X (Proc.devRef .tc main_arg0) = X (Proc.devRef .tc main_arg0) :=
  StableHlo.after_of_forall_not_mem _ _ (by not_written)
theorem keep3_arg0 : StableHlo.after hostOps0_3 X (Proc.devRef .tc main_arg0) = X (Proc.devRef .tc main_arg0) :=
  StableHlo.after_of_forall_not_mem _ _ (by not_written)
theorem keep4_arg0 : StableHlo.after hostOps0_4 X (Proc.devRef .tc main_arg0) = X (Proc.devRef .tc main_arg0) :=
  StableHlo.after_of_forall_not_mem _ _ (by not_written)
theorem keep0_arg2 : StableHlo.after hostOps0 X (Proc.devRef .tc main_arg2) = X (Proc.devRef .tc main_arg2) :=
  StableHlo.after_of_forall_not_mem _ _ (by not_written)
theorem keep6_v4 : StableHlo.after hostOps0_6 X (Proc.devRef .tc main_v4) = X (Proc.devRef .tc main_v4) :=
  StableHlo.after_of_forall_not_mem _ _ (by not_written)
theorem keep5_v4 : StableHlo.after hostOps0_5 X (Proc.devRef .tc main_v4) = X (Proc.devRef .tc main_v4) :=
  StableHlo.after_of_forall_not_mem _ _ (by not_written)
theorem keep1_v0 : StableHlo.after hostOps0_1 X (Proc.devRef .tc main_v0) = X (Proc.devRef .tc main_v0) :=
  StableHlo.after_of_forall_not_mem _ _ (by not_written)
theorem keep0_arg3 : StableHlo.after hostOps0 X (Proc.devRef .tc main_arg3) = X (Proc.devRef .tc main_arg3) :=
  StableHlo.after_of_forall_not_mem _ _ (by not_written)
theorem keep1_arg3 : StableHlo.after hostOps0_1 X (Proc.devRef .tc main_arg3) = X (Proc.devRef .tc main_arg3) :=
  StableHlo.after_of_forall_not_mem _ _ (by not_written)
theorem keep2_arg3 : StableHlo.after hostOps0_2 X (Proc.devRef .tc main_arg3) = X (Proc.devRef .tc main_arg3) :=
  StableHlo.after_of_forall_not_mem _ _ (by not_written)
theorem keep3_arg3 : StableHlo.after hostOps0_3 X (Proc.devRef .tc main_arg3) = X (Proc.devRef .tc main_arg3) :=
  StableHlo.after_of_forall_not_mem _ _ (by not_written)
end Keeps

/-! ## In-range words stay in range -/

theorem shapeCast_inRange {s t : Shape} (x : s.Idx → BitVec 32) (h : s.ShapeCasts t) (hx : InRange x) :
    InRange (shapeCast t x h) := fun i => hx _

/-- A take from a table of in-range words at in-range words gives in-range words. -/
theorem takeRows_inRange {n D : Nat}
    (b0 : S_.BroadcastsInDim ⟨1, ![n]⟩ (![] : Fin 0 → Fin 1))
    (b1 : (⟨1, ![n]⟩ : Shape).BroadcastsInDim ⟨2, ![n, 1]⟩ (![0] : Fin 1 → Fin 2))
    (b2 : S_.BroadcastsInDim ⟨2, ![n, 1]⟩ (![] : Fin 0 → Fin 2))
    (b3 : S1.BroadcastsInDim S1x1 (![1] : Fin 1 → Fin 2))
    (b4 : S1x1.BroadcastsInDim ⟨2, ![n, 1]⟩ (![0, 1] : Fin 2 → Fin 2))
    (r : (⟨2, ![n, 1]⟩ : Shape).ReducesTo [1] ⟨1, ![n]⟩) (h0 : 0 < S_.numel)
    (b5 : (⟨1, ![n]⟩ : Shape).BroadcastsInDim ⟨2, ![n, D]⟩ (![0] : Fin 1 → Fin 2))
    (d : GatherDims ⟨2, ![200000, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (z : (⟨2, ![200000, D]⟩ : Shape).Idx → BitVec 32) (idx : IVec ⟨1, ![n]⟩ 32) (fill : (⟨2, ![n, D]⟩ : Shape).Idx → BitVec 32)
    (hz : InRange z) (hin : InRange idx) : InRange (takeRows b0 b1 b2 b3 b4 r h0 b5 d z idx fill) := fun i => by
  have hi : i = ix2 (⟨(i 0).val, idx2_lt0 i⟩ : Fin n) (⟨(i 1).val, idx2_lt1 i⟩ : Fin D) := by
    funext a; match a with | ⟨0, _⟩ => rfl | ⟨1, _⟩ => rfl
  rw [hi, takeRows_apply b0 b1 b2 b3 b4 r h0 b5 d hoff hcoll hob hsim hivd z idx fill hin]
  exact hz _

/-- The table's rows at a rectangle of in-range words, taken as one line of words and laid back out as a rectangle
    of rows: position `(b, k)` holds the row its word names. -/
theorem rows_read (z : ZTab) (w : S8192x30.Idx → BitVec 32) (hw : InRange w) (b : Fin 8192) (k : Fin 30) (d : Fin 256) :
    shapeCast S8192x30x256
        (takeRows (n := 245760) (D := 256) bcast_S_S245760 bcast_S245760_S245760x1_0 bcast_S_S245760x1 bcast_S1_S1x1_1 bcast_S1x1_S245760x1_0_1
        reducesTo_S245760x1_S245760_d1 h_S_ bcast_S245760_S245760x256_0
          gather_S200000x256_S245760x1_S245760x256_1_0_n_n_0_1_1256 z (shapeCast S245760 w shapeCasts_S8192x30_S245760) (broadcastInDim S245760x256 ![] bcast_S_S245760x256 (constant (F := Ideal) S_ .f32 0x7FC00000#32)))
        shapeCasts_S245760x256_S8192x30x256 (ix3 b k d)
      = z (ix2 (rowOf (w (ix2 b k))) d) := by
  have hp : 30 * b.val + k.val < 245760 := by omega
  rw [shapeCast_apply _ shapeCasts_S245760x256_S8192x30x256 (ix3 b k d) (ix2 ⟨30 * b.val + k.val, hp⟩ d) (by
    rw [Shape.rowMajor_val_two, Shape.rowMajor_val_three]
    show (30 * b.val + k.val) * 256 + d.val = (b.val * 30 + k.val) * 256 + d.val
    omega)]
  rw [takeRows_apply _ _ _ _ _ _ _ _ _ rfl rfl rfl rfl rfl _ _ _ (shapeCast_inRange _ _ hw)]
  rw [shapeCast_apply w shapeCasts_S8192x30_S245760 (ix1 ⟨30 * b.val + k.val, hp⟩) (ix2 b k) (by
    rw [Shape.rowMajor_val_two, Shape.rowMajor_val_one]
    show b.val * 30 + k.val = 30 * b.val + k.val
    omega)]

/-! ## The three arrays -/

/-- The first input array of the region: sample `b`'s anchor row. -/
theorem V_anchor (hci : InRange (argC m c)) (b : Fin 8192) (d : Fin 256) :
    V m c main_v1 (ix2 b d) = anchor (argZ m c) (argC m c) b d := by
  show V0 m c (Proc.devRef .tc main_v1) (ix2 b d) = _
  rw [V0_eq, keep6_v1, keep5_v1, keep4_v1, keep3_v1, keep2_v1, take1_eq, keep0_arg0, keep0_arg2]
  exact takeRows_apply _ _ _ _ _ _ _ _ _ rfl rfl rfl rfl rfl _ _ _ hci b d

/-- The second: sample `b`'s neighbour rows. -/
theorem V_nn (hci : InRange (argC m c)) (hpk : InRange (argK m c)) (b : Fin 8192) (k : Fin 30) (d : Fin 256) :
    V m c main_v4 (ix3 b k d) = nnRow (argZ m c) (argK m c) (argC m c) b k d := by
  show V0 m c (Proc.devRef .tc main_v4) (ix3 b k d) = _
  rw [V0_eq, keep6_v4, keep5_v4, resh4a_eq, take3_eq, keep2_arg0, keep1_arg0, keep0_arg0, resh2_eq, keep1_v0, take0_eq]
  have hw : InRange (takeRows (n := 8192) (D := 30) bcast_S_S8192 bcast_S8192_S8192x1_0 bcast_S_S8192x1 bcast_S1_S1x1_1 bcast_S1x1_S8192x1_0_1
        reducesTo_S8192x1_S8192_d1 h_S_ bcast_S8192_S8192x30_0
      gather_S200000x30_S8192x1_S8192x30_1_0_n_n_0_1_130 (argK m c) (argC m c) (broadcastInDim S8192x30 ![] bcast_S_S8192x30 (constantI S_ 32 2147483648#32))) :=
    takeRows_inRange _ _ _ _ _ _ _ _ _ rfl rfl rfl rfl rfl _ _ _ hpk hci
  refine (rows_read (argZ m c) _ hw b k d).trans ?_
  rw [takeRows_apply _ _ _ _ _ _ _ _ _ rfl rfl rfl rfl rfl _ _ _ hci b k]
  rfl

/-- The third: sample `b`'s negative rows. -/
theorem V_neg (hni : InRange (argN m c)) (b : Fin 8192) (k : Fin 30) (d : Fin 256) :
    V m c main_v7 (ix3 b k d) = negRow (argZ m c) (argN m c) b k d := by
  show V0 m c (Proc.devRef .tc main_v7) (ix3 b k d) = _
  rw [V0_eq, resh6_eq, take5_eq, keep4_arg0, keep3_arg0, keep2_arg0, keep1_arg0, keep0_arg0, resh4b_eq, keep3_arg3, keep2_arg3,
    keep1_arg3, keep0_arg3]
  exact rows_read (argZ m c) (argN m c) hni b k d

end Cert.KernelIdeal.HostPrefix

end
-- ==== Proof.KernelPayload.lean ====
/-
  What the kernel body leaves in its output block, read at a row: from the three input blocks (128 anchors, their
  128 × 30 neighbour rows and negative rows) row `r` of the output block is the loss of sample `r` of the block.
-/
import proofs.«403241_j17892833755271_3_alg».proof.KernelIdeal
import proofs.«403241_j17892833755271_3_alg».proof.Proof.Gen.KernelIdeal.Frame
import proofs.«403241_j17892833755271_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Payload

open Cert.KernelIdeal Cert.KernelIdeal.Gen Idealize.ShloMosaic Idealize.ShloMosaic.TcCoe Idealize.SL.Sem
open Idealize.ShloMosaic.ValueIdx Cert.SoftNP

/-! ## The words the body carries -/

/-- The word of `1.0` denotes `1`. -/
theorem word_one : Ideal.ofBits .f32 0x3F800000#32 = 1 := by
  simp [Ideal.ofBits, Ideal.ieee, -EReal.coe_mul]; norm_num

/-- The word of `-∞` denotes `⊥`. -/
theorem word_bot : Ideal.ofBits .f32 0xFF800000#32 = ⊥ := by
  simp [Ideal.ofBits, Ideal.ieee]

/-! ## The zero offsets of the body's whole-block accesses -/

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-! ## The layout operations and the lane reductions, read at coordinates -/

/-- The anchor block, given a unit middle axis and spread over the thirty rows, reads the anchor's entry. -/
theorem spread_anchor (x0 : Vec Ideal S128x256 .f32) (r : Fin 128) (k : Fin 30) (d : Fin 256) :
    broadcastTo S128x30x256
        (shapeCast S128x1x256 (shapeCast S128x256 x0 shapeCasts_S128x256_S128x256) shapeCasts_S128x256_S128x1x256)
        broadcasts_S128x1x256_S128x30x256 (ix3 r k d)
      = x0 (ix2 r d) := by
  refine (broadcastTo_apply _ _ (ix3 r k d) (ix3 r (0 : Fin 1) d) ?_).trans ?_
  · intro a
    match a with
    | ⟨0, _⟩ => rfl
    | ⟨1, _⟩ => rfl
    | ⟨2, _⟩ => rfl
  refine (shapeCast_apply _ _ (ix3 r (0 : Fin 1) d) (ix2 r d) ?_).trans ?_
  · rw [Shape.rowMajor_val_two, Shape.rowMajor_val_three]
    show r.val * 256 + d.val = (r.val * 1 + 0) * 256 + d.val
    omega
  rw [shapeCast_self]

/-- A sum over the 256 lanes, read at row `r`, entry `k`. -/
theorem sum_lanes (src : FVec Ideal S128x30x256 .f32) (r : Fin 128) (k : Fin 30) :
    multiReduction (F := Ideal) .add [2] S128x30 src 0x00000000#32 reduces_S128x30x256_S128x30 (.inl rfl) rfl (ix2 r k)
      = ∑ d : Fin 256, src (ix3 r k d) := by
  refine (Ideal.multiReduction_add_single src 0x00000000#32 reduces_S128x30x256_S128x30 (.inl rfl) rfl (ix2 r k)).trans ?_
  refine Finset.sum_congr rfl fun d _ => congrArg src ?_
  funext a
  refine Fin.ext ?_
  match a with
  | ⟨0, _⟩ => rfl
  | ⟨1, _⟩ => rfl
  | ⟨2, _⟩ => rfl

/-- A sum over a row's thirty entries, read at row `r`. -/
theorem sum_row (src : FVec Ideal S128x30 .f32) (r : Fin 128) :
    multiReduction (F := Ideal) .add [1] S128 src 0x00000000#32 reduces_S128x30_S128 (.inl rfl) rfl (ix1 r)
      = ∑ k : Fin 30, src (ix2 r k) := by
  refine (Ideal.multiReduction_add_single src 0x00000000#32 reduces_S128x30_S128 (.inl rfl) rfl (ix1 r)).trans ?_
  refine Finset.sum_congr rfl fun k _ => congrArg src ?_
  funext a
  refine Fin.ext ?_
  match a with
  | ⟨0, _⟩ => rfl
  | ⟨1, _⟩ => rfl

/-- A maximum over a row's thirty entries, read at row `r`. -/
theorem max_row (src : FVec Ideal S128x30 .f32) (r : Fin 128) :
    multiReduction (F := Ideal) .maximumf [1] S128 src 0xFF800000#32 reduces_S128x30_S128 (.inl rfl) rfl (ix1 r)
      = rowMax (fun k => src (ix2 r k)) := by
  refine (Ideal.multiReduction_maximumf_single src 0xFF800000#32 reduces_S128x30_S128 (.inl rfl) rfl (ix1 r)).trans ?_
  unfold rowMax
  rw [Ideal.ofBits_def, word_bot]
  refine congrArg (Finset.fold max ⊥ · Finset.univ) ?_
  funext k
  refine congrArg src ?_
  funext a
  refine Fin.ext ?_
  match a with
  | ⟨0, _⟩ => rfl
  | ⟨1, _⟩ => rfl

/-- A per-row value, given a unit second axis and spread over the thirty entries, reads the row's value. -/
theorem spread_row (m : FVec Ideal S128 .f32) (r : Fin 128) (k : Fin 30) :
    broadcastTo S128x30 (shapeCast S128x1 m shapeCasts_S128_S128x1) broadcasts_S128x1_S128x30 (ix2 r k) = m (ix1 r) := by
  refine (broadcastTo_apply _ _ (ix2 r k) (ix2 r (0 : Fin 1)) ?_).trans ?_
  · intro a
    match a with
    | ⟨0, _⟩ => rfl
    | ⟨1, _⟩ => rfl
  refine shapeCast_apply _ _ (ix2 r (0 : Fin 1)) (ix1 r) ?_
  rw [Shape.rowMajor_val_one, Shape.rowMajor_val_two]
  show r.val = r.val * 1 + 0
  omega

/-! ## The body's stages, named

The body's value is written here stage by stage, each stage the very term the body carries, so that each can be read
at coordinates on its own. -/

/-- The anchors spread over the thirty rows. -/
def spreadAnchor (x0 : Vec Ideal S128x256 .f32) : FVec Ideal S128x30x256 .f32 :=
  broadcastTo S128x30x256
    (shapeCast S128x1x256 (shapeCast S128x256 x0 shapeCasts_S128x256_S128x256) shapeCasts_S128x256_S128x1x256)
    broadcasts_S128x1x256_S128x30x256

/-- The squared distances from the anchors to a block of rows. -/
def sqDist (x0 : Vec Ideal S128x256 .f32) (v : Vec Ideal S128x30x256 .f32) : FVec Ideal S128x30 .f32 :=
  multiReduction .add [2] S128x30
    (mulf (subf (shapeCast S128x30x256 v shapeCasts_S128x30x256_S128x30x256) (spreadAnchor x0))
      (subf (shapeCast S128x30x256 v shapeCasts_S128x30x256_S128x30x256) (spreadAnchor x0)))
    0x00000000#32 reduces_S128x30x256_S128x30 (.inl rfl) rfl

/-- The negated distances: `(0 - √·) · 1`. -/
def negD (q : FVec Ideal S128x30 .f32) : FVec Ideal S128x30 .f32 :=
  mulf (subf (broadcast S128x30 (Scalar.ofBits .f32 0x00000000#32)) (sqrt q))
    (broadcast S128x30 (Scalar.ofBits .f32 0x3F800000#32))

/-- Each row's largest entry over both blocks. -/
def top (a b : FVec Ideal S128x30 .f32) : FVec Ideal S128 .f32 :=
  maximumf (multiReduction .maximumf [1] S128 a 0xFF800000#32 reduces_S128x30_S128 (.inl rfl) rfl)
    (multiReduction .maximumf [1] S128 b 0xFF800000#32 reduces_S128x30_S128 (.inl rfl) rfl)

/-- Each row's sum of exponentials of its entries less the row's value `m`. -/
def expSum (a : FVec Ideal S128x30 .f32) (m : FVec Ideal S128 .f32) : FVec Ideal S128 .f32 :=
  multiReduction .add [1] S128
    (exp (subf a (broadcastTo S128x30 (shapeCast S128x1 m shapeCasts_S128_S128x1) broadcasts_S128x1_S128x30)))
    0x00000000#32 reduces_S128x30_S128 (.inl rfl) rfl

/-- Each row's share: the first block's sum over the sum of both. -/
def share (a b : FVec Ideal S128x30 .f32) : FVec Ideal S128 .f32 :=
  divf (expSum a (top a b)) (addf (expSum a (top a b)) (expSum b (top a b)))

/-- The body's quotient is the share of the two blocks' negated distances. -/
theorem pay2_eq (x0 : Vec Ideal S128x256 .f32) (x1 x2 : Vec Ideal S128x30x256 .f32) :
    k0_pay2 x0 x1 x2 = share (negD (sqDist x0 x1)) (negD (sqDist x0 x2)) := rfl

/-! ## The stages read at coordinates -/

theorem spreadAnchor_apply (x0 : Vec Ideal S128x256 .f32) (r : Fin 128) (k : Fin 30) (d : Fin 256) :
    spreadAnchor x0 (ix3 r k d) = x0 (ix2 r d) := spread_anchor x0 r k d

/-- A squared distance: the sum over the lanes of the squared differences. -/
theorem sqDist_apply (x0 : Vec Ideal S128x256 .f32) (v : Vec Ideal S128x30x256 .f32) (r : Fin 128) (k : Fin 30) :
    sqDist x0 v (ix2 r k)
      = ∑ d : Fin 256, (v (ix3 r k d) - x0 (ix2 r d)) * (v (ix3 r k d) - x0 (ix2 r d)) := by
  unfold sqDist
  refine (sum_lanes _ r k).trans ?_
  refine Finset.sum_congr rfl fun d _ => ?_
  show (shapeCast S128x30x256 v shapeCasts_S128x30x256_S128x30x256 (ix3 r k d) - spreadAnchor x0 (ix3 r k d))
      * (shapeCast S128x30x256 v shapeCasts_S128x30x256_S128x30x256 (ix3 r k d) - spreadAnchor x0 (ix3 r k d)) = _
  rw [shapeCast_self, spreadAnchor_apply]

/-- A negated distance. -/
theorem negD_apply (q : FVec Ideal S128x30 .f32) (r : Fin 128) (k : Fin 30) :
    negD q (ix2 r k) = (0 - Ideal.sqrt (q (ix2 r k))) * 1 := by
  show (Ideal.ofBits .f32 0x00000000#32 - Ideal.sqrt (q (ix2 r k))) * Ideal.ofBits .f32 0x3F800000#32 = _
  rw [Ideal.ofBits_zero_f32, word_one]

/-- A row's largest entry over both blocks. -/
theorem top_apply (a b : FVec Ideal S128x30 .f32) (r : Fin 128) :
    top a b (ix1 r) = max (rowMax fun k => a (ix2 r k)) (rowMax fun k => b (ix2 r k)) := by
  unfold top
  rw [maximumf_apply, max_row, max_row]

/-- A row's sum of exponentials. -/
theorem expSum_apply (a : FVec Ideal S128x30 .f32) (m : FVec Ideal S128 .f32) (r : Fin 128) :
    expSum a m (ix1 r) = ∑ k : Fin 30, Ideal.exp (a (ix2 r k) - m (ix1 r)) := by
  unfold expSum
  refine (sum_row _ r).trans ?_
  refine Finset.sum_congr rfl fun k _ => ?_
  show Ideal.exp (a (ix2 r k)
      - broadcastTo S128x30 (shapeCast S128x1 m shapeCasts_S128_S128x1) broadcasts_S128x1_S128x30 (ix2 r k)) = _
  rw [spread_row]

/-- A row's share. -/
theorem share_apply (a b : FVec Ideal S128x30 .f32) (r : Fin 128) :
    share a b (ix1 r)
      = Ideal.div (expSum a (top a b) (ix1 r)) (expSum a (top a b) (ix1 r) + expSum b (top a b) (ix1 r)) := rfl

/-- The body's last stage: the smoothing constant added, the logarithm, the negation. -/
theorem pay1_apply (s : FVec Ideal S128 .f32) (r : Fin 128) :
    k0_pay1 s (k0_pay3 (F := Ideal)) (ix1 r) = 0 - Ideal.log (s (ix1 r) + eps) := by
  show Ideal.ofBits .f32 0x00000000#32 - Ideal.log (s (ix1 r) + Ideal.ofBits .f32 0x322BCC77#32) = _
  rw [Ideal.ofBits_zero_f32]
  unfold eps
  rfl

/-- Row `r` of the output block is the loss of the block's sample `r`. -/
theorem out_apply (x0 : Vec Ideal S128x256 .f32) (x1 x2 : Vec Ideal S128x30x256 .f32) (r : Fin 128) :
    out0_3 (F := Ideal) x0 x1 x2 (ix1 r)
      = rowLoss (fun d => x0 (ix2 r d)) (fun k d => x1 (ix3 r k d)) (fun k d => x2 (ix3 r k d)) := by
  unfold out0_3
  rw [View.canon_unit_zero off1]
  simp only [View.ld_unit_zero (S := S128x256) off2, View.ld_unit_zero (S := S128x30x256) off3]
  rw [pay2_eq, pay1_apply, share_apply, expSum_apply, expSum_apply, top_apply]
  simp only [negD_apply, sqDist_apply]
  rfl

end Cert.KernelIdeal.Payload

end
-- ==== Proof.KernelBlocks.lean ====
/-
  From blocks to the array. Grid point `t` stages rows `128 t … 128 t + 127` of the three input arrays and writes
  back rows `128 t … 128 t + 127` of the output; the 64 points cover all 8192 rows, so after the region the output
  array holds, at row `i`, the loss of sample `i` computed from row `i` of the three input arrays.
-/
import proofs.«403241_j17892833755271_3_alg».proof.KernelIdeal
import proofs.«403241_j17892833755271_3_alg».proof.Proof.Gen.KernelIdeal.Frame
import proofs.«403241_j17892833755271_3_alg».proof.Proof.Spec
import proofs.«403241_j17892833755271_3_alg».proof.Proof.KernelPayload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.SoftNP

variable (m : (ℓ : Loc nD τ sig) → Buf (Elt Ideal) ℓ)

/-- The block index maps, decided over the grid: each input window's first block index is the output window's, its
    other block indices are zero, and the output's block index stays below 64. -/
theorem idx_facts : ∀ t : Fin cfg0.N,
    win0_0.index t (0 : Fin 2) = win0_3.index t (0 : Fin 1) ∧ win0_0.index t (1 : Fin 2) = 0
    ∧ win0_1.index t (0 : Fin 3) = win0_3.index t (0 : Fin 1) ∧ win0_1.index t (1 : Fin 3) = 0
    ∧ win0_1.index t (2 : Fin 3) = 0
    ∧ win0_2.index t (0 : Fin 3) = win0_3.index t (0 : Fin 1) ∧ win0_2.index t (1 : Fin 3) = 0
    ∧ win0_2.index t (2 : Fin 3) = 0
    ∧ win0_3.index t (0 : Fin 1) ≤ 63 :=
  (by decide +kernel : ∀ t : Fin grid0.N, _)

/-- Every one of the 64 row blocks of the output is some point's. -/
theorem idx_onto : ∀ q : Fin 64, ∃ t : Fin cfg0.N, win0_3.index t = ![q.val] :=
  (by decide +kernel : ∀ q : Fin 64, ∃ t : Fin grid0.N, win0_3.index t = ![q.val])

/-- Row `r` of the anchor block at point `t` is row `i` of the anchor array, `i` the row the output block's
    row `r` is. -/
theorem anchor_blk (c : Dev nD) (t : Fin cfg0.N) (r : Fin 128) (d : Fin 256) (i : Fin 8192)
    (hi : i.val = win0_3.index t (0 : Fin 1) * 128 + r.val) :
    (iblk m c 0 t : Vec Ideal S128x256 .f32) (ix2 r d) = V m c main_v1 (ix2 i d) := by
  obtain ⟨e0, e1, -⟩ := idx_facts t
  unfold iblk
  rw [View.read_apply]
  show V m c main_v1 (((cfg0.win 0).blk t).view.emb (ix2 r d)) = V m c main_v1 (ix2 i d)
  congr 1
  funext a
  apply Fin.ext
  match a with
  | ⟨0, _⟩ => show win0_0.index t (0 : Fin 2) * 128 + 1 * r.val = i.val; omega
  | ⟨1, _⟩ => show win0_0.index t (1 : Fin 2) * 256 + 1 * d.val = d.val; omega

/-- Row `r` of the neighbour block at point `t` is row `i` of the neighbour array. -/
theorem neighbour_blk (c : Dev nD) (t : Fin cfg0.N) (r : Fin 128) (k : Fin 30) (d : Fin 256) (i : Fin 8192)
    (hi : i.val = win0_3.index t (0 : Fin 1) * 128 + r.val) :
    (iblk m c 1 t : Vec Ideal S128x30x256 .f32) (ix3 r k d) = V m c main_v4 (ix3 i k d) := by
  obtain ⟨-, -, e0, e1, e2, -⟩ := idx_facts t
  unfold iblk
  rw [View.read_apply]
  show V m c main_v4 (((cfg0.win 1).blk t).view.emb (ix3 r k d)) = V m c main_v4 (ix3 i k d)
  congr 1
  funext a
  apply Fin.ext
  match a with
  | ⟨0, _⟩ => show win0_1.index t (0 : Fin 3) * 128 + 1 * r.val = i.val; omega
  | ⟨1, _⟩ => show win0_1.index t (1 : Fin 3) * 30 + 1 * k.val = k.val; omega
  | ⟨2, _⟩ => show win0_1.index t (2 : Fin 3) * 256 + 1 * d.val = d.val; omega

/-- Row `r` of the negative block at point `t` is row `i` of the negative array. -/
theorem negative_blk (c : Dev nD) (t : Fin cfg0.N) (r : Fin 128) (k : Fin 30) (d : Fin 256) (i : Fin 8192)
    (hi : i.val = win0_3.index t (0 : Fin 1) * 128 + r.val) :
    (iblk m c 2 t : Vec Ideal S128x30x256 .f32) (ix3 r k d) = V m c main_v7 (ix3 i k d) := by
  obtain ⟨-, -, -, -, -, e0, e1, e2, -⟩ := idx_facts t
  unfold iblk
  rw [View.read_apply]
  show V m c main_v7 (((cfg0.win 2).blk t).view.emb (ix3 r k d)) = V m c main_v7 (ix3 i k d)
  congr 1
  funext a
  apply Fin.ext
  match a with
  | ⟨0, _⟩ => show win0_2.index t (0 : Fin 3) * 128 + 1 * r.val = i.val; omega
  | ⟨1, _⟩ => show win0_2.index t (1 : Fin 3) * 30 + 1 * k.val = k.val; omega
  | ⟨2, _⟩ => show win0_2.index t (2 : Fin 3) * 256 + 1 * d.val = d.val; omega

/-- What the output array ends holding: at row `i` the loss of sample `i` from row `i` of the three input arrays. -/
abbrev lossOfRows (c : Dev nD) : S8192.Idx → EReal :=
  fun i => rowLoss (fun d => V m c main_v1 (ix2 (i 0) d)) (fun k d => V m c main_v4 (ix3 (i 0) k d))
    (fun k d => V m c main_v7 (ix3 (i 0) k d))

/-- Row `r` of the output block at point `t` is the loss of sample `i`, the row of the array that row is. -/
theorem out_blk (c : Dev nD) (t : Fin cfg0.N) (r : Fin 128) (i : Fin 8192)
    (hi : i.val = win0_3.index t (0 : Fin 1) * 128 + r.val) :
    out0_3 (F := Ideal) (iblk m c 0 t) (iblk m c 1 t) (iblk m c 2 t) (ix1 r) = lossOfRows m c (ix1 i) := by
  have hx : (fun d => (iblk m c 0 t : Vec Ideal S128x256 .f32) (ix2 r d)) = fun d => V m c main_v1 (ix2 i d) :=
    funext fun d => anchor_blk m c t r d i hi
  have hP : (fun k d => (iblk m c 1 t : Vec Ideal S128x30x256 .f32) (ix3 r k d)) = fun k d => V m c main_v4 (ix3 i k d) :=
    funext fun k => funext fun d => neighbour_blk m c t r k d i hi
  have hN : (fun k d => (iblk m c 2 t : Vec Ideal S128x30x256 .f32) (ix3 r k d)) = fun k d => V m c main_v7 (ix3 i k d) :=
    funext fun k => funext fun d => negative_blk m c t r k d i hi
  refine (Payload.out_apply (iblk m c 0 t) (iblk m c 1 t) (iblk m c 2 t) r).trans ?_
  exact congr (congr (congrArg rowLoss hx) hP) hN

/-- What point `t` writes back is its block of `lossOfRows`. -/
theorem flushed_eq (c : Dev nD) (t : Fin cfg0.N) :
    (dats m 0 c).flushed 3 t = ((cfg0.win 3).blk t).view.read (Elt Ideal) (lossOfRows m c) := by
  show (cfg0.win 3).cut (grid0.coords t) ((dats m 0 c).after 3 t) = _
  rw [after0_3]
  obtain ⟨-, -, -, -, -, -, -, -, e⟩ := idx_facts t
  funext j
  rw [View.read_apply]
  show out0_3 (F := Ideal) (iblk m c 0 t) (iblk m c 1 t) (iblk m c 2 t) j
    = lossOfRows m c (((cfg0.win 3).blk t).view.emb j)
  have hr : (j 0).val < 128 := (j 0).isLt
  refine ((congrArg (out0_3 (F := Ideal) (iblk m c 0 t) (iblk m c 1 t) (iblk m c 2 t)) (eq_ix1 j)).trans
    (out_blk m c t (j 0) ⟨win0_3.index t (0 : Fin 1) * 128 + (j 0).val, by omega⟩ rfl)).trans ?_
  refine congrArg (lossOfRows m c) ?_
  funext a
  apply Fin.ext
  match a with
  | ⟨0, _⟩ => show win0_3.index t (0 : Fin 1) * 128 + (j 0).val = win0_3.index t (0 : Fin 1) * 128 + 1 * (j 0).val; omega

/-- A row of the array is in point `t`'s block iff it lies in the block's range of rows. -/
theorem mem_blk (t : Fin cfg0.N) (i : S8192.Idx) :
    i ∈ ((cfg0.win 3).blk t).view.set ↔ ∀ a : Fin 1, win0_3.index t a * S128.size a ≤ (i a).val
      ∧ (i a).val < win0_3.index t a * S128.size a + S128.size a := by
  show i ∈ ((View.whole main_v8).slice (win0_3.rect t)).set ↔ _
  rw [View.set_slice_whole, Rect.mem_set_unit]
  exact Iff.rfl

/-- Every row of the array is in some point's block: row `i` in the block of the point whose block index is
    `i / 128`. -/
theorem cover (i : S8192.Idx) :
    ∃ t : Fin cfg0.N, (cfg0.win 3).flush t = true ∧ i ∈ ((cfg0.win 3).blk t).view.set := by
  have hi : (i 0).val < 8192 := (i 0).isLt
  obtain ⟨t, ht⟩ := idx_onto ⟨(i 0).val / 128, by omega⟩
  have q : win0_3.index t (0 : Fin 1) = (i 0).val / 128 := congrFun ht 0
  refine ⟨t, flush0_3 t, ?_⟩
  rw [mem_blk]
  intro a
  match a with
  | ⟨0, _⟩ =>
    show win0_3.index t (0 : Fin 1) * 128 ≤ (i 0).val ∧ (i 0).val < win0_3.index t (0 : Fin 1) * 128 + 128
    omega

/-- The output array after the region: at row `i` the loss of sample `i`, from row `i` of the three input arrays as
    the region finds them. -/
theorem final3 (c : Dev nD) :
    (dats m 0 c).arrAt 3 cfg0.N
      = fun i : S8192.Idx => rowLoss (fun d => V m c main_v1 (ix2 (i 0) d)) (fun k d => V m c main_v4 (ix3 (i 0) k d))
          (fun k d => V m c main_v7 (ix3 (i 0) k d)) := by
  exact (dats m 0 c).arrAt_eq_of_cover 3 (lossOfRows m c) (fun t _ => flushed_eq m c t) cover

end Cert.KernelIdeal.Blocks

end
-- ==== Proof.KernelRun.lean ====
/-
  The idealized kernel's run, read: its result is the mean of the output array the region leaves, and under in-range
  indices that array is the batch's losses as one function of the four arguments.
-/
import proofs.«403241_j17892833755271_3_alg».proof.KernelIdeal
import proofs.«403241_j17892833755271_3_alg».proof.Proof.Gen.KernelIdeal.Frame
import proofs.«403241_j17892833755271_3_alg».proof.Proof.Spec
import proofs.«403241_j17892833755271_3_alg».proof.Proof.Mean
import proofs.«403241_j17892833755271_3_alg».proof.Proof.KernelHost
import proofs.«403241_j17892833755271_3_alg».proof.Proof.KernelBlocks
import Idealize.ShloMosaic.Lib.StableHlo.Run
import Idealize.ShloMosaic.Lib.Pipeline.Value

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.Pipeline (Dat)
open Idealize.ShloMosaic.ValueIdx Cert.SoftNP

variable (m : (ℓ : Loc nD τ sig) → Buf (Elt Ideal) ℓ) (ρ : Dev nD → PrngReg)

/-- After the region the host takes the mean of the output array. -/
theorem tail_eq (c : Dev nD) :
    Pipeline.afterTail₀ cfgs (dats m) 0 (V0 m) [hostOps1] c main_v10 = meanOf ((dats m 0 c).arrAt 3 cfg0.N) := by
  unfold Pipeline.afterTail₀
  show StableHlo.after hostOps1 _ (Proc.devRef .tc main_v10) = _
  after_results
  have e := Pipeline.withArrays_arr spec0 launch0.win.arr_inj c (V0 m c) (fun w => (dats m 0 c).arrAt w cfg0.N) 3
  exact congrArg (fun L : FVec Ideal S8192 .f32 => Host.divf (F := Ideal) (φ := .f32)
    (Host.reduceAdd (F := Ideal) (φ := .f32) L (constant (F := Ideal) S_ .f32 0x00000000#32) reducesTo_S8192_S_d0 h_S_)
    (constant (F := Ideal) S_ .f32 0x46000000#32)) e

/-- The idealized kernel's run with its result named: the mean of the region's output array; the arguments unchanged. -/
theorem run_mean : θ_run defs (onTc (τ := τ) (main (F := Ideal))) ⟨m, fun _ => 0, ρ⟩ fun r => ∀ c : Dev nD,
      r.2.mem ((c.tc : Thread nD τ).loc main_v10) = meanOf ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- On in-range indices the region's output array is the batch's losses, one function of the four arguments. -/
theorem losses (c : Dev nD) (hpk : InRange (HostPrefix.argK m c)) (hci : InRange (HostPrefix.argC m c))
    (hni : InRange (HostPrefix.argN m c)) :
    (dats m 0 c).arrAt 3 cfg0.N
      = lossVec (HostPrefix.argZ m c) (HostPrefix.argK m c) (HostPrefix.argC m c) (HostPrefix.argN m c) := by
  rw [Blocks.final3]
  funext i
  have h1 : (fun d => V m c main_v1 (ix2 (i 0) d)) = anchor (HostPrefix.argZ m c) (HostPrefix.argC m c) (i 0) :=
    funext fun d => HostPrefix.V_anchor m c hci (i 0) d
  have h2 : (fun k d => V m c main_v4 (ix3 (i 0) k d))
      = nnRow (HostPrefix.argZ m c) (HostPrefix.argK m c) (HostPrefix.argC m c) (i 0) :=
    funext fun k => funext fun d => HostPrefix.V_nn m c hci hpk (i 0) k d
  have h3 : (fun k d => V m c main_v7 (ix3 (i 0) k d)) = negRow (HostPrefix.argZ m c) (HostPrefix.argN m c) (i 0) :=
    funext fun k => funext fun d => HostPrefix.V_neg m c hni (i 0) k d
  show rowLoss _ _ _ = rowLoss _ _ _
  rw [h1, h2, h3]

end Cert.KernelIdeal.RunValue

end
-- ==== Proof.RefRows.lean ====
/-
  The reference's vector of 8192 losses (the value it takes the mean of), read at a sample: on in-range indices it is
  the reference's form of the sample's loss, from the sample's anchor, neighbour and negative rows.
-/
import proofs.«403241_j17892833755271_3_alg».proof.ReferenceIdeal
import proofs.«403241_j17892833755271_3_alg».proof.Proof.Gen.ReferenceIdeal.Run
import proofs.«403241_j17892833755271_3_alg».proof.Proof.Gen.ReferenceIdeal.Read
import proofs.«403241_j17892833755271_3_alg».proof.Proof.Spec
import proofs.«403241_j17892833755271_3_alg».proof.Proof.LibGatherRows
import Idealize.ShloMosaic.Lib.Pipeline.Value
import Idealize.ShloMosaic.PureOps.Ideal.Laws
import Idealize.ShloMosaic.PureOps.Reduce

set_option maxRecDepth 16384

noncomputable section

namespace Cert.ReferenceIdeal.RefRows

open Cert.ReferenceIdeal Cert.ReferenceIdeal.Gen Idealize.ShloMosaic Idealize.ShloMosaic.TcCoe Idealize.SL.Sem
open Idealize.ShloMosaic.ValueIdx Cert.SoftNP

/-! ## The index wrap: an in-range word is kept -/

/-- A word that is not negative as a signed integer is not below zero: the wrap's select keeps it. -/
theorem wrap_keep (w c : BitVec 32) (h0 : 0 ≤ w.toInt) :
    Scalar.select (IntOp.cmpi .slt w 0#32) c w = w := by
  have hs : w.slt 0#32 = false := by
    simp only [BitVec.slt, BitVec.toInt_zero, decide_eq_false_iff_not, not_lt]
    exact h0
  have hc : IntOp.cmpi .slt w 0#32 = 0#1 := by
    unfold IntOp.cmpi
    simp only [hs]
    rfl
  rw [hc, select_zero]

/-- The row a gather reads at a word is the specification's row of that word. -/
theorem row_eq (w : BitVec 32) (h : min w.toInt.toNat (200000 - 1) < 200000) :
    (⟨min w.toInt.toNat (200000 - 1), h⟩ : Fin 200000) = rowOf w := Fin.ext rfl

/-! ## The anchor rows -/

theorem idx_v5 (b : Fin 8192) : Read.idx_main_v5 (ix2 b (0 : Fin 1)) = ix1 b :=
  funext fun a => Fin.ext (by match a with | ⟨0, _⟩ => rfl)

/-- The wrapped cell index of sample `b` is the cell index itself. -/
theorem v5_apply (ci : CIdx) (hci : InRange ci) (b : Fin 8192) :
    Read.val_main_v5 (F := Ideal) ci (ix2 b (0 : Fin 1)) = ci (ix1 b) := by
  rw [Read.val_main_v5_apply, idx_v5, Read.val_main_v4_apply, Read.val_main_v1_apply, Read.val_main_v0_apply,
    Read.val_main_c_apply]
  exact wrap_keep _ _ (hci _).1

/-- The first gather reads the anchor row. -/
theorem v6_apply (z : ZTab) (ci : CIdx) (hci : InRange ci) (b : Fin 8192) (d : Fin 256) :
    Read.val_main_v6 (F := Ideal) z ci (ix2 b d) = anchor z ci b d := by
  unfold Read.val_main_v6
  rw [Cert.Lib.GatherRows.gather_rows2 (by norm_num) _ rfl rfl rfl rfl rfl, row_eq, v5_apply ci hci b]
  rfl

/-! ## The neighbour rows: the neighbour table read at the cell, then the latent table at those words -/

theorem idx_v12 (b : Fin 8192) : Read.idx_main_v12 (ix2 b (0 : Fin 1)) = ix1 b :=
  funext fun a => Fin.ext (by match a with | ⟨0, _⟩ => rfl)

theorem v12_apply (ci : CIdx) (hci : InRange ci) (b : Fin 8192) :
    Read.val_main_v12 (F := Ideal) ci (ix2 b (0 : Fin 1)) = ci (ix1 b) := by
  rw [Read.val_main_v12_apply, idx_v12, Read.val_main_v11_apply, Read.val_main_v8_apply, Read.val_main_v7_apply,
    Read.val_main_c_1_apply]
  exact wrap_keep _ _ (hci _).1

/-- The second gather reads the anchor cell's line of the neighbour table. -/
theorem v13_apply (pk : KTab) (ci : CIdx) (hci : InRange ci) (b : Fin 8192) (k : Fin 30) :
    Read.val_main_v13 (F := Ideal) pk ci (ix2 b k) = nnWord pk ci b k := by
  unfold Read.val_main_v13
  rw [Cert.Lib.GatherRows.gather_rows2 (by norm_num) _ rfl rfl rfl rfl rfl, row_eq, v12_apply ci hci b]
  rfl

theorem idx_v19 (b : Fin 8192) (k : Fin 30) : Read.idx_main_v19 (ix3 b k (0 : Fin 1)) = ix2 b k :=
  funext fun a => Fin.ext (by match a with | ⟨0, _⟩ => rfl | ⟨1, _⟩ => rfl)

theorem v19_apply (pk : KTab) (ci : CIdx) (hpk : InRange pk) (hci : InRange ci) (b : Fin 8192) (k : Fin 30) :
    Read.val_main_v19 (F := Ideal) pk ci (ix3 b k (0 : Fin 1)) = nnWord pk ci b k := by
  rw [Read.val_main_v19_apply, idx_v19, Read.val_main_v18_apply, Read.val_main_v15_apply, Read.val_main_v14_apply,
    Read.val_main_c_3_apply, v13_apply pk ci hci b k]
  exact wrap_keep _ _ (hpk _).1

/-- The third gather reads the neighbour rows. -/
theorem v20_apply (z : ZTab) (pk : KTab) (ci : CIdx) (hpk : InRange pk) (hci : InRange ci) (b : Fin 8192) (k : Fin 30)
    (d : Fin 256) : Read.val_main_v20 (F := Ideal) z pk ci (ix3 b k d) = nnRow z pk ci b k d := by
  unfold Read.val_main_v20
  rw [Cert.Lib.GatherRows.gather_rows3 (by norm_num) _ rfl rfl rfl rfl rfl, row_eq, v19_apply pk ci hpk hci b k]
  rfl

/-! ## The negative rows -/

theorem idx_v26 (b : Fin 8192) (k : Fin 30) : Read.idx_main_v26 (ix3 b k (0 : Fin 1)) = ix2 b k :=
  funext fun a => Fin.ext (by match a with | ⟨0, _⟩ => rfl | ⟨1, _⟩ => rfl)

theorem v26_apply (ni : NIdx) (hni : InRange ni) (b : Fin 8192) (k : Fin 30) :
    Read.val_main_v26 (F := Ideal) ni (ix3 b k (0 : Fin 1)) = ni (ix2 b k) := by
  rw [Read.val_main_v26_apply, idx_v26, Read.val_main_v25_apply, Read.val_main_v22_apply, Read.val_main_v21_apply,
    Read.val_main_c_5_apply]
  exact wrap_keep _ _ (hni _).1

/-- The fourth gather reads the negative rows. -/
theorem v27_apply (z : ZTab) (ni : NIdx) (hni : InRange ni) (b : Fin 8192) (k : Fin 30) (d : Fin 256) :
    Read.val_main_v27 (F := Ideal) z ni (ix3 b k d) = negRow z ni b k d := by
  unfold Read.val_main_v27
  rw [Cert.Lib.GatherRows.gather_rows3 (by norm_num) _ rfl rfl rfl rfl rfl, row_eq, v26_apply ni hni b k]
  rfl

/-! ## The distances from the anchor -/

theorem idx_v28 (b : Fin 8192) (d : Fin 256) : Read.idx_main_v28 (ix3 b (0 : Fin 1) d) = ix2 b d :=
  funext fun a => Fin.ext (by match a with | ⟨0, _⟩ => rfl | ⟨1, _⟩ => rfl)

theorem idx_v29 (b : Fin 8192) (k : Fin 30) (d : Fin 256) : Read.idx_main_v29 (ix3 b k d) = ix3 b (0 : Fin 1) d :=
  funext fun a => Fin.ext (by match a with | ⟨0, _⟩ => rfl | ⟨1, _⟩ => rfl | ⟨2, _⟩ => rfl)

/-- The anchor row, repeated along the thirty neighbours. -/
theorem v29_apply (z : ZTab) (ci : CIdx) (hci : InRange ci) (b : Fin 8192) (k : Fin 30) (d : Fin 256) :
    Read.val_main_v29 (F := Ideal) z ci (ix3 b k d) = anchor z ci b d := by
  rw [Read.val_main_v29_apply, idx_v29, Read.val_main_v28_apply, idx_v28, v6_apply z ci hci b d]

theorem idx_v32 (b : Fin 8192) (d : Fin 256) : Read.idx_main_v32 (ix3 b (0 : Fin 1) d) = ix2 b d :=
  funext fun a => Fin.ext (by match a with | ⟨0, _⟩ => rfl | ⟨1, _⟩ => rfl)

theorem idx_v33 (b : Fin 8192) (k : Fin 30) (d : Fin 256) : Read.idx_main_v33 (ix3 b k d) = ix3 b (0 : Fin 1) d :=
  funext fun a => Fin.ext (by match a with | ⟨0, _⟩ => rfl | ⟨1, _⟩ => rfl | ⟨2, _⟩ => rfl)

/-- The anchor row, repeated along the thirty negatives. -/
theorem v33_apply (z : ZTab) (ci : CIdx) (hci : InRange ci) (b : Fin 8192) (k : Fin 30) (d : Fin 256) :
    Read.val_main_v33 (F := Ideal) z ci (ix3 b k d) = anchor z ci b d := by
  rw [Read.val_main_v33_apply, idx_v33, Read.val_main_v32_apply, idx_v32, v6_apply z ci hci b d]

theorem idx_call0_v1 (b : Fin 8192) (k : Fin 30) (d : Fin 256) : Read.idx_main_call0_v1 (ix2 b k) d = ix3 b k d :=
  funext fun a => Fin.ext (by match a with | ⟨0, _⟩ => rfl | ⟨1, _⟩ => rfl | ⟨2, _⟩ => rfl)

theorem idx_call1_v1 (b : Fin 8192) (k : Fin 30) (d : Fin 256) : Read.idx_main_call1_v1 (ix2 b k) d = ix3 b k d :=
  funext fun a => Fin.ext (by match a with | ⟨0, _⟩ => rfl | ⟨1, _⟩ => rfl | ⟨2, _⟩ => rfl)

/-- The distance from the anchor to neighbour `k`. -/
theorem v31_apply (z : ZTab) (pk : KTab) (ci : CIdx) (hpk : InRange pk) (hci : InRange ci) (b : Fin 8192) (k : Fin 30) :
    Read.val_main_v31 (F := Ideal) z pk ci (ix2 b k)
      = Ideal.sqrt (0 + ∑ d, (nnRow z pk ci b k d - anchor z ci b d) * (nnRow z pk ci b k d - anchor z ci b d)) := by
  rw [Read.val_main_v31_apply, Ideal.hostUnary_sqrt_def, Read.val_main_call0_v1_apply, Read.val_main_call0_cst_apply,
    Ideal.ofBits_def, Ideal.ofBits_zero_f32]
  refine congrArg (fun s => Ideal.sqrt (0 + s)) (Finset.sum_congr rfl fun d _ => ?_)
  rw [idx_call0_v1, Read.val_main_call0_v0_apply, Read.val_main_v30_apply, Ideal.mulf_def, Ideal.subf_def,
    v20_apply z pk ci hpk hci b k d, v29_apply z ci hci b k d]

/-- The distance from the anchor to negative `k`. -/
theorem v35_apply (z : ZTab) (ci : CIdx) (ni : NIdx) (hci : InRange ci) (hni : InRange ni) (b : Fin 8192) (k : Fin 30) :
    Read.val_main_v35 (F := Ideal) z ci ni (ix2 b k)
      = Ideal.sqrt (0 + ∑ d, (negRow z ni b k d - anchor z ci b d) * (negRow z ni b k d - anchor z ci b d)) := by
  rw [Read.val_main_v35_apply, Ideal.hostUnary_sqrt_def, Read.val_main_call1_v1_apply, Read.val_main_call1_cst_apply,
    Ideal.ofBits_def, Ideal.ofBits_zero_f32]
  refine congrArg (fun s => Ideal.sqrt (0 + s)) (Finset.sum_congr rfl fun d _ => ?_)
  rw [idx_call1_v1, Read.val_main_call1_v0_apply, Read.val_main_v34_apply, Ideal.mulf_def, Ideal.subf_def,
    v27_apply z ni hni b k d, v33_apply z ci hci b k d]

/-! ## The sixty negated distances -/

/-- The word of `1.0` denotes one. -/
theorem ofBits_one : Ideal.ofBits .f32 0x3F800000#32 = 1 := by
  simp [Ideal.ofBits, Ideal.ieee, -EReal.coe_mul]; norm_num

/-- The word of `-inf` denotes the bottom element. -/
theorem ofBits_negInf : Ideal.ofBits .f32 0xFF800000#32 = ⊥ := by
  simp [Ideal.ofBits, Ideal.ieee]

/-- Two arrays of thirty columns joined along the columns, read at row `b`, column `j`: the first array's entry below
    column thirty, the second's from there on. -/
theorem conc_apply (u v : (⟨2, ![8192, 30]⟩ : Shape).Idx → EReal)
    (h : Shape.Concatenates [S8192x30, S8192x30] S8192x60 1) (b : Fin 8192) (j : Fin 60) :
    concatenate S8192x60 1 [⟨S8192x30, u⟩, ⟨S8192x30, v⟩] h (ix2 b j)
      = Fin.append (fun k : Fin 30 => u (ix2 b k)) (fun k : Fin 30 => v (ix2 b k)) j := by
  refine Fin.addCases (m := 30) (n := 30) (fun k => ?_) (fun k => ?_) j
  · rw [Fin.append_left]
    exact concatenate_pair_apply_left 1 u v h (ix2 b (Fin.castAdd 30 k)) rfl (ix2 b k)
      (fun a => by match a with | ⟨0, _⟩ => rfl | ⟨1, _⟩ => rfl)
  · rw [Fin.append_right]
    exact concatenate_pair_apply_right 1 u v h (ix2 b (Fin.natAdd 30 k)) rfl rfl (ix2 b k)
      (fun a ha => by match a, ha with | ⟨0, _⟩, _ => rfl | ⟨1, _⟩, ha => exact absurd rfl ha)
      (by show k.val + 30 = 30 + k.val; omega)

/-- The sixty negated distances of sample `b`: neighbours first, negatives after. -/
theorem v39_apply (z : ZTab) (pk : KTab) (ci : CIdx) (ni : NIdx) (hpk : InRange pk) (hci : InRange ci) (hni : InRange ni)
    (b : Fin 8192) (j : Fin 60) :
    Read.val_main_v39 (F := Ideal) z pk ci ni (ix2 b j)
      = joined (anchor z ci b) (nnRow z pk ci b) (negRow z ni b) j := by
  rw [Read.val_main_v39_apply, Read.val_main_v37_apply, Read.val_main_v38_apply, Read.val_main_cst_apply,
    Ideal.hostDivf_def, Ideal.hostNegf_def, Ideal.negf_def, Ideal.ofBits_def, ofBits_one]
  unfold Read.val_main_v36
  rw [conc_apply]
  unfold joined refNegDist
  refine Fin.addCases (m := 30) (n := 30) (fun k => ?_) (fun k => ?_) j
  · rw [Fin.append_left, Fin.append_left, v31_apply z pk ci hpk hci b k]
  · rw [Fin.append_right, Fin.append_right, v35_apply z ci ni hci hni b k]

/-! ## The largest of the sixty, the shifted exponentials and their total -/

/-- Sample `b`'s sixty joined entries. -/
def cRow (z : ZTab) (pk : KTab) (ci : CIdx) (ni : NIdx) (b : Fin 8192) : Fin 60 → EReal :=
  joined (anchor z ci b) (nnRow z pk ci b) (negRow z ni b)

/-- Their largest, as the reference takes it: once by the fold from the bottom element, once more against it. -/
def mRow (z : ZTab) (pk : KTab) (ci : CIdx) (ni : NIdx) (b : Fin 8192) : EReal :=
  max ⊥ ((Finset.univ : Finset (Fin 60)).fold max ⊥ (cRow z pk ci ni b))

/-- The total of the sixty shifted exponentials. -/
def tRow (z : ZTab) (pk : KTab) (ci : CIdx) (ni : NIdx) (b : Fin 8192) : EReal :=
  0 + ∑ j, Ideal.exp (cRow z pk ci ni b j - mRow z pk ci ni b)

/-- Row `b` with column `k` put back is the entry at row `b`, column `k`. -/
theorem lift_row (h : S8192x60.Reduces [1] S8192) (b : Fin 8192) (k : Fin (S8192x60.size 1)) :
    h.lift (ix1 b) k = ix2 b (⟨k.val, k.isLt⟩ : Fin 60) := by
  funext c; apply Fin.ext
  match c with
  | ⟨0, _⟩ => rfl
  | ⟨1, _⟩ => rfl

/-- The reduction by maximum along the sixty columns is the fold of `max` from the bottom element. -/
theorem v40_apply (z : ZTab) (pk : KTab) (ci : CIdx) (ni : NIdx) (hpk : InRange pk) (hci : InRange ci) (hni : InRange ni)
    (b : Fin 8192) :
    Read.val_main_v40 (F := Ideal) z pk ci ni (ix1 b)
      = (Finset.univ : Finset (Fin 60)).fold max ⊥ (cRow z pk ci ni b) := by
  have hR : S8192x60.Reduces [1] S8192 := by decide
  unfold Read.val_main_v40
  rw [Host.reduce_eq_fold_single FloatOps.maximumf _ _ reducesTo_S8192x60_S8192_d1 hR h_S_,
    Read.val_main_cst_7_apply, Ideal.ofBits_def, ofBits_negInf]
  have hf : (Read.val_main_v39 (F := Ideal) z pk ci ni ∘ hR.lift (ix1 b)) = cRow z pk ci ni b :=
    funext fun k => by
      rw [Function.comp_apply, lift_row, v39_apply z pk ci ni hpk hci hni b]
      rfl
  rw [hf]
  rfl

/-- The largest entry, taken once more against the bottom element. -/
theorem v42_apply (z : ZTab) (pk : KTab) (ci : CIdx) (ni : NIdx) (hpk : InRange pk) (hci : InRange ci) (hni : InRange ni)
    (b : Fin 8192) :
    Read.val_main_v42 (F := Ideal) z pk ci ni (ix1 b) = mRow z pk ci ni b := by
  rw [Read.val_main_v42_apply, Ideal.maximumf_def, Read.val_main_v41_apply, Read.val_main_cst_8_apply, Ideal.ofBits_def,
    ofBits_negInf, v40_apply z pk ci ni hpk hci hni b]
  rfl

theorem idx_v43 (b : Fin 8192) : Read.idx_main_v43 (ix2 b (0 : Fin 1)) = ix1 b :=
  funext fun a => Fin.ext (by match a with | ⟨0, _⟩ => rfl)

theorem idx_v44 (b : Fin 8192) (j : Fin 60) : Read.idx_main_v44 (ix2 b j) = ix2 b (0 : Fin 1) :=
  funext fun a => Fin.ext (by match a with | ⟨0, _⟩ => rfl | ⟨1, _⟩ => rfl)

/-- The largest entry, repeated along the sixty columns. -/
theorem v44_apply (z : ZTab) (pk : KTab) (ci : CIdx) (ni : NIdx) (hpk : InRange pk) (hci : InRange ci) (hni : InRange ni)
    (b : Fin 8192) (j : Fin 60) :
    Read.val_main_v44 (F := Ideal) z pk ci ni (ix2 b j) = mRow z pk ci ni b := by
  rw [Read.val_main_v44_apply, idx_v44, Read.val_main_v43_apply, idx_v43, v42_apply z pk ci ni hpk hci hni b]

/-- The shifted exponentials. -/
theorem v46_apply (z : ZTab) (pk : KTab) (ci : CIdx) (ni : NIdx) (hpk : InRange pk) (hci : InRange ci) (hni : InRange ni)
    (b : Fin 8192) (j : Fin 60) :
    Read.val_main_v46 (F := Ideal) z pk ci ni (ix2 b j)
      = Ideal.exp (cRow z pk ci ni b j - mRow z pk ci ni b) := by
  rw [Read.val_main_v46_apply, Ideal.hostUnary_exp_def, Read.val_main_v45_apply, Ideal.subf_def,
    v39_apply z pk ci ni hpk hci hni b j, v44_apply z pk ci ni hpk hci hni b j]
  rfl

theorem idx_v47 (b : Fin 8192) (k : Fin 60) : Read.idx_main_v47 (ix1 b) k = ix2 b k :=
  funext fun a => Fin.ext (by match a with | ⟨0, _⟩ => rfl | ⟨1, _⟩ => rfl)

/-- Their total. -/
theorem v47_apply (z : ZTab) (pk : KTab) (ci : CIdx) (ni : NIdx) (hpk : InRange pk) (hci : InRange ci) (hni : InRange ni)
    (b : Fin 8192) :
    Read.val_main_v47 (F := Ideal) z pk ci ni (ix1 b) = tRow z pk ci ni b := by
  rw [Read.val_main_v47_apply, Read.val_main_cst_9_apply, Ideal.ofBits_def, Ideal.ofBits_zero_f32]
  refine congrArg (fun s => 0 + s) (Finset.sum_congr rfl fun k _ => ?_)
  rw [idx_v47, v46_apply z pk ci ni hpk hci hni b k]

theorem idx_v48 (b : Fin 8192) : Read.idx_main_v48 (ix2 b (0 : Fin 1)) = ix1 b :=
  funext fun a => Fin.ext (by match a with | ⟨0, _⟩ => rfl)

theorem idx_v49 (b : Fin 8192) (j : Fin 60) : Read.idx_main_v49 (ix2 b j) = ix2 b (0 : Fin 1) :=
  funext fun a => Fin.ext (by match a with | ⟨0, _⟩ => rfl | ⟨1, _⟩ => rfl)

/-- The shares: each shifted exponential over the total. -/
theorem v50_apply (z : ZTab) (pk : KTab) (ci : CIdx) (ni : NIdx) (hpk : InRange pk) (hci : InRange ci) (hni : InRange ni)
    (b : Fin 8192) (j : Fin 60) :
    Read.val_main_v50 (F := Ideal) z pk ci ni (ix2 b j)
      = Ideal.div (Ideal.exp (cRow z pk ci ni b j - mRow z pk ci ni b)) (tRow z pk ci ni b) := by
  rw [Read.val_main_v50_apply, Ideal.hostDivf_def, v46_apply z pk ci ni hpk hci hni b j, Read.val_main_v49_apply, idx_v49,
    Read.val_main_v48_apply, idx_v48, v47_apply z pk ci ni hpk hci hni b]

theorem idx_v51 (b : Fin 8192) (k : Fin 30) : Read.idx_main_v51 (ix2 b k) = ix2 b (Fin.castAdd 30 k) :=
  funext fun a => Fin.ext (by match a with | ⟨0, _⟩ => rfl | ⟨1, _⟩ => rfl)

theorem idx_v52 (b : Fin 8192) (k : Fin 30) : Read.idx_main_v52 (ix1 b) k = ix2 b k :=
  funext fun a => Fin.ext (by match a with | ⟨0, _⟩ => rfl | ⟨1, _⟩ => rfl)

/-- The neighbours' shares, summed. -/
theorem v52_apply (z : ZTab) (pk : KTab) (ci : CIdx) (ni : NIdx) (hpk : InRange pk) (hci : InRange ci) (hni : InRange ni)
    (b : Fin 8192) :
    Read.val_main_v52 (F := Ideal) z pk ci ni (ix1 b)
      = 0 + ∑ k : Fin 30, Ideal.div (Ideal.exp (cRow z pk ci ni b (Fin.castAdd 30 k) - mRow z pk ci ni b)) (tRow z pk ci ni b) := by
  rw [Read.val_main_v52_apply, Read.val_main_cst_10_apply, Ideal.ofBits_def, Ideal.ofBits_zero_f32]
  refine congrArg (fun s => 0 + s) (Finset.sum_congr rfl fun k _ => ?_)
  rw [idx_v52, Read.val_main_v51_apply, idx_v51, v50_apply z pk ci ni hpk hci hni b]

/-- The reference's losses, sample by sample. -/
theorem losses_eq (z : ZTab) (pk : KTab) (ci : CIdx) (ni : NIdx)
    (hpk : InRange pk) (hci : InRange ci) (hni : InRange ni) :
    Read.val_main_v56 (F := Ideal) z pk ci ni = refLossVec z pk ci ni := by
  funext i
  obtain ⟨b, rfl⟩ : ∃ b : Fin 8192, i = ix1 b := ⟨i 0, eq_ix1 i⟩
  rw [Read.val_main_v56_apply, Ideal.hostNegf_def, Ideal.negf_def, Read.val_main_v55_apply, Ideal.hostUnary_log_def,
    Read.val_main_v54_apply, Ideal.addf_def, Read.val_main_v53_apply, Read.val_main_cst_11_apply, Ideal.ofBits_def,
    v52_apply z pk ci ni hpk hci hni b]
  rfl

end Cert.ReferenceIdeal.RefRows

end
-- ==== Proof.RowAlgebra.lean ====
/-
  The law that joins the two sides, on one sample with finite rows. The reference divides each of the sixty
  exponentials by their total `T` and sums the first thirty quotients; the kernel sums the first thirty (`A`) and the
  last thirty (`B`) and divides `A` by `A + B`. `T = A + B` by splitting the sum at thirty; the quotients' sum is the
  sum's quotient because every exponential is non-negative and `T` is not zero (a finite row has a finite distance, so
  its exponential is positive); the two maxima agree (the largest of sixty is the larger of the two largest of
  thirty); and `0 - d`, `· 1` on one side are `-d`, `/ 1` on the other.
-/
import proofs.«403241_j17892833755271_3_alg».proof.Proof.Spec
import Mathlib.Algebra.BigOperators.Fin
import Mathlib.Data.EReal.Operations
import Mathlib.Data.EReal.Inv
import Mathlib.Data.Finset.Fold

noncomputable section

open scoped BigOperators

namespace Cert.SoftNP

open Idealize.ShloMosaic

/-- A finite sum of reals, read in the extended reals, is the real sum. -/
theorem coe_sum_real {ι : Type} (s : Finset ι) (f : ι → ℝ) :
    (∑ i ∈ s, (f i : EReal)) = ((∑ i ∈ s, f i : ℝ) : EReal) := by
  classical
  refine Finset.induction_on s ?_ ?_
  · simp
  · intro a t ha ih
    rw [Finset.sum_insert ha, Finset.sum_insert ha, ih, EReal.coe_add]

/-- Between finite rows the sum of squared differences is a non-negative real, so the negated distance is a real,
    and both writings of it (`(0 - √S) · 1` and `-(√(0 + S)) / 1`) give that real. -/
theorem negDist_real (x y : Fin 256 → EReal) (hx : ∀ d, x d ≠ ⊥ ∧ x d ≠ ⊤) (hy : ∀ d, y d ≠ ⊥ ∧ y d ≠ ⊤) :
    ∃ r : ℝ, negDist x y = (r : EReal) ∧ refNegDist x y = (r : EReal) := by
  have hxr : ∀ d, ((x d).toReal : EReal) = x d := fun d => EReal.coe_toReal (hx d).2 (hx d).1
  have hyr : ∀ d, ((y d).toReal : EReal) = y d := fun d => EReal.coe_toReal (hy d).2 (hy d).1
  have hS : (∑ d, (y d - x d) * (y d - x d))
      = ((∑ d, ((y d).toReal - (x d).toReal) * ((y d).toReal - (x d).toReal) : ℝ) : EReal) := by
    rw [← coe_sum_real]
    refine Finset.sum_congr rfl fun d _ => ?_
    rw [EReal.coe_mul, EReal.coe_sub, hxr, hyr]
  have hs0 : ¬ (∑ d, ((y d).toReal - (x d).toReal) * ((y d).toReal - (x d).toReal) : ℝ) < 0 :=
    not_lt.mpr (Finset.sum_nonneg fun d _ => mul_self_nonneg _)
  refine ⟨-Real.sqrt (∑ d, ((y d).toReal - (x d).toReal) * ((y d).toReal - (x d).toReal)), ?_, ?_⟩
  · unfold negDist
    rw [hS, Ideal.sqrt_coe, if_neg hs0, mul_one, zero_sub, EReal.coe_neg]
  · unfold refNegDist
    rw [zero_add, hS, Ideal.sqrt_coe, if_neg hs0, Ideal.div, if_neg one_ne_zero, inv_one, mul_one, EReal.coe_neg]

/-- The largest of sixty joined entries is the larger of the two largest of thirty. -/
theorem fold_max_append (a b : Fin 30 → EReal) :
    (Finset.univ : Finset (Fin (30 + 30))).fold max ⊥ (Fin.append a b) = max (rowMax a) (rowMax b) := by
  unfold rowMax
  apply le_antisymm
  · rw [Finset.fold_max_le]
    refine ⟨bot_le, fun j _ => ?_⟩
    refine Fin.addCases (fun i => ?_) (fun i => ?_) j
    · rw [Fin.append_left]
      exact le_max_of_le_left ((Finset.le_fold_max _).mpr (Or.inr ⟨i, Finset.mem_univ _, le_rfl⟩))
    · rw [Fin.append_right]
      exact le_max_of_le_right ((Finset.le_fold_max _).mpr (Or.inr ⟨i, Finset.mem_univ _, le_rfl⟩))
  · apply max_le
    · rw [Finset.fold_max_le]
      refine ⟨bot_le, fun i _ => (Finset.le_fold_max _).mpr (Or.inr ⟨Fin.castAdd 30 i, Finset.mem_univ _, ?_⟩)⟩
      rw [Fin.append_left]
    · rw [Finset.fold_max_le]
      refine ⟨bot_le, fun i _ => (Finset.le_fold_max _).mpr (Or.inr ⟨Fin.natAdd 30 i, Finset.mem_univ _, ?_⟩)⟩
      rw [Fin.append_right]

/-- The largest of thirty reals is a real. -/
theorem rowMax_real (a : Fin 30 → EReal) (ar : Fin 30 → ℝ) (ha : ∀ k, a k = (ar k : EReal)) :
    rowMax a ≠ ⊥ ∧ rowMax a ≠ ⊤ := by
  unfold rowMax
  constructor
  · refine ne_of_gt ((Finset.lt_fold_max _).mpr (Or.inr ⟨0, Finset.mem_univ _, ?_⟩))
    rw [ha]; exact EReal.bot_lt_coe _
  · refine ne_of_lt ((Finset.fold_max_lt _).mpr ⟨bot_lt_top, fun k _ => ?_⟩)
    rw [ha]; exact EReal.coe_lt_top _

/-- With real entries and a real `M`, the sum of the first thirty shares of the sixty-entry softmax is the quotient
    of the first thirty exponentials' sum by the whole sum: every exponential is a positive real, so the total is a
    non-zero real and each division is a product with its reciprocal, which the real sum pulls out. -/
theorem share_eq (a b : Fin 30 → EReal) (M : EReal) (ar br : Fin 30 → ℝ) (m : ℝ)
    (ha : ∀ k, a k = (ar k : EReal)) (hb : ∀ k, b k = (br k : EReal)) (hM : M = (m : EReal)) :
    (0 + ∑ k : Fin 30, Ideal.div (Ideal.exp ((Fin.append a b : Fin (30 + 30) → EReal) (Fin.castAdd 30 k) - M))
        (0 + ∑ j : Fin (30 + 30), Ideal.exp ((Fin.append a b : Fin (30 + 30) → EReal) j - M)))
      = Ideal.div (∑ k, Ideal.exp (a k - M)) ((∑ k, Ideal.exp (a k - M)) + ∑ k, Ideal.exp (b k - M)) := by
  have hea : ∀ k, Ideal.exp (a k - M) = ((Real.exp (ar k - m) : ℝ) : EReal) := fun k => by
    rw [ha, hM, ← EReal.coe_sub, Ideal.exp_coe]
  have heb : ∀ k, Ideal.exp (b k - M) = ((Real.exp (br k - m) : ℝ) : EReal) := fun k => by
    rw [hb, hM, ← EReal.coe_sub, Ideal.exp_coe]
  have hA : (∑ k, Ideal.exp (a k - M)) = ((∑ k, Real.exp (ar k - m) : ℝ) : EReal) := by
    rw [← coe_sum_real]; exact Finset.sum_congr rfl fun k _ => hea k
  have hB : (∑ k, Ideal.exp (b k - M)) = ((∑ k, Real.exp (br k - m) : ℝ) : EReal) := by
    rw [← coe_sum_real]; exact Finset.sum_congr rfl fun k _ => heb k
  have hT : (0 + ∑ j : Fin (30 + 30), Ideal.exp ((Fin.append a b : Fin (30 + 30) → EReal) j - M))
      = (((∑ k, Real.exp (ar k - m)) + ∑ k, Real.exp (br k - m) : ℝ) : EReal) := by
    rw [zero_add, Fin.sum_univ_add]
    simp only [Fin.append_left, Fin.append_right]
    rw [hA, hB, EReal.coe_add]
  have hApos : 0 < ∑ k : Fin 30, Real.exp (ar k - m) :=
    Finset.sum_pos (fun k _ => Real.exp_pos _) Finset.univ_nonempty
  have hBnn : 0 ≤ ∑ k : Fin 30, Real.exp (br k - m) := Finset.sum_nonneg fun k _ => (Real.exp_pos _).le
  have ht : ((∑ k, Real.exp (ar k - m)) + ∑ k, Real.exp (br k - m) : ℝ) ≠ 0 := (add_pos_of_pos_of_nonneg hApos hBnn).ne'
  rw [hT, zero_add, hA, hB, ← EReal.coe_add, Ideal.div_coe ht]
  simp only [Fin.append_left, hea, Ideal.div_coe ht, ← EReal.coe_mul]
  rw [coe_sum_real, ← Finset.sum_mul]

/-- On finite rows the reference's form of a sample's loss is the kernel's. -/
theorem refRowLoss_eq (x : Fin 256 → EReal) (P N : Fin 30 → Fin 256 → EReal)
    (hx : ∀ d, x d ≠ ⊥ ∧ x d ≠ ⊤) (hP : ∀ k d, P k d ≠ ⊥ ∧ P k d ≠ ⊤) (hN : ∀ k d, N k d ≠ ⊥ ∧ N k d ≠ ⊤) :
    refRowLoss x P N = rowLoss x P N := by
  -- the sixty negated distances are reals, the same in both writings
  choose ar har har' using fun k => negDist_real x (P k) hx (hP k)
  choose br hbr hbr' using fun k => negDist_real x (N k) hx (hN k)
  have hj : joined x P N
      = (Fin.append (fun k => negDist x (P k)) (fun k => negDist x (N k)) : Fin (30 + 30) → EReal) := by
    unfold joined
    congr 1 <;> funext k
    · rw [har', har]
    · rw [hbr', hbr]
  -- the larger of the two largest of thirty is a real
  have hMa := rowMax_real (fun k => negDist x (P k)) ar har
  have hMb := rowMax_real (fun k => negDist x (N k)) br hbr
  have hMr : max (rowMax fun k => negDist x (P k)) (rowMax fun k => negDist x (N k)) ≠ ⊥
      ∧ max (rowMax fun k => negDist x (P k)) (rowMax fun k => negDist x (N k)) ≠ ⊤ := by
    rcases max_choice (rowMax fun k => negDist x (P k)) (rowMax fun k => negDist x (N k)) with h | h
    · rw [h]; exact hMa
    · rw [h]; exact hMb
  have hm := (EReal.coe_toReal hMr.2 hMr.1).symm
  unfold refRowLoss rowLoss
  dsimp only
  rw [zero_sub]
  congr 3
  rw [hj, max_bot_left, fold_max_append]
  exact share_eq _ _ _ ar br _ har hbr hm

end Cert.SoftNP

end
-- ==== Proof.lean ====
/-
  The certificate of the soft nearest-positive loss kernel against its jnp reference.

  Both programs read a table `z` of 200000 latent rows, a table of neighbour indices, 8192 cell indices and 8192 × 30
  negative indices, and return the mean over the batch of `-log (s + ε)`, where for a sample `s` is the share of the
  softmax over its sixty negated Euclidean distances (anchor to thirty neighbours, anchor to thirty negatives) that
  falls on the neighbours. The kernel gathers the anchor, neighbour and negative rows on the host, computes the 8192
  losses in a gridded region (two partial sums and one quotient per sample) and takes the mean on the host; the
  reference computes a softmax over the sixty joined distances and sums its first thirty entries.

  The precondition: every entry of `z` finite, and every index word in `[0, 200000)`. Outside that range the two
  programs read different rows (the reference clamps an out-of-range index, the kernel's take fills the row), so the
  claim is stated where the reference's indexing is in range.

  The frames of the two kernel programs are the generated ones; the reference's frame is its generated run. The value
  claim: the kernel's result is the mean of the region's output array, which block by block is the batch's losses as
  one function of the arguments (Proof/KernelRun.lean over Proof/KernelBlocks.lean, Proof/KernelPayload.lean,
  Proof/KernelHost.lean); the reference's result is the mean of its own losses (Proof/RefRows.lean); and sample by
  sample the two forms of the loss agree on finite rows (Proof/RowAlgebra.lean).
-/
import proofs.«403241_j17892833755271_3_alg».proof.Defs
import proofs.«403241_j17892833755271_3_alg».proof.Proof.Gen.Kernel
import proofs.«403241_j17892833755271_3_alg».proof.Proof.Gen.Kernel.Skeleton
import proofs.«403241_j17892833755271_3_alg».proof.Proof.Gen.Kernel.Launch
import proofs.«403241_j17892833755271_3_alg».proof.Proof.Gen.Kernel.Points
import proofs.«403241_j17892833755271_3_alg».proof.Proof.Gen.Kernel.Frame
import proofs.«403241_j17892833755271_3_alg».proof.Proof.Gen.KernelIdeal
import proofs.«403241_j17892833755271_3_alg».proof.Proof.Gen.KernelIdeal.Skeleton
import proofs.«403241_j17892833755271_3_alg».proof.Proof.Gen.KernelIdeal.Launch
import proofs.«403241_j17892833755271_3_alg».proof.Proof.Gen.KernelIdeal.Points
import proofs.«403241_j17892833755271_3_alg».proof.Proof.Gen.KernelIdeal.Frame
import proofs.«403241_j17892833755271_3_alg».proof.Proof.Gen.ReferenceIdeal
import proofs.«403241_j17892833755271_3_alg».proof.Proof.Gen.ReferenceIdeal.Run
import proofs.«403241_j17892833755271_3_alg».proof.Proof.Gen.ReferenceIdeal.Read
import proofs.«403241_j17892833755271_3_alg».proof.Proof.Gen.Pre_finite_inputs
import proofs.«403241_j17892833755271_3_alg».proof.Proof.Spec
import proofs.«403241_j17892833755271_3_alg».proof.Proof.Mean
import proofs.«403241_j17892833755271_3_alg».proof.Proof.PreDecode
import proofs.«403241_j17892833755271_3_alg».proof.Proof.KernelRun
import proofs.«403241_j17892833755271_3_alg».proof.Proof.RefRows
import proofs.«403241_j17892833755271_3_alg».proof.Proof.RowAlgebra
import Idealize.ShloMosaic.Adequacy
import Idealize.ShloMosaic.Init

noncomputable section

namespace Cert.Proof

open Idealize.ShloMosaic Idealize.SL.Sem Cert.SoftNP

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result is the mean of its vector of losses. -/
theorem ref_mean (z : ZTab) (pk : KTab) (ci : CIdx) (ni : NIdx) :
    Cert.ReferenceIdeal.Read.val_main_v58 (F := Ideal) z pk ci ni
      = meanOf (Cert.ReferenceIdeal.Read.val_main_v56 (F := Ideal) z pk ci ni) := rfl

/-- On a finite table and in-range indices the reference's losses are the kernel's, sample by sample. -/
theorem refLossVec_eq (z : ZTab) (pk : KTab) (ci : CIdx) (ni : NIdx) (hz : Finite z) :
    refLossVec z pk ci ni = lossVec z pk ci ni :=
  funext fun i => refRowLoss_eq _ _ _ (fun d => hz _) (fun k d => hz _) (fun k d => hz _)

/-- Both idealized programs, from memories agreeing on the arguments, end with the mean of the batch's losses. -/
theorem algebraic : Cert.algebraic_KernelIdeal_ReferenceIdeal := by
  intro m ρ m' ρ' hpre hagree
  have hdec := fun c => PreDecode.of_fn _ _ _ _ (hpre c)
  refine ⟨fun c => meanOf (lossVec (Cert.KernelIdeal.HostPrefix.argZ m c) (Cert.KernelIdeal.HostPrefix.argK m c)
    (Cert.KernelIdeal.HostPrefix.argC m c) (Cert.KernelIdeal.HostPrefix.argN m c)), ?_, ?_⟩
  · refine (θ_run Cert.KernelIdeal.defs _ _).mono (fun _ h c => ⟨(h c).1.trans ?_, (h c).2⟩)
      (Cert.KernelIdeal.RunValue.run_mean m ρ)
    obtain ⟨_, hpk, hci, hni⟩ := hdec c
    rw [Cert.KernelIdeal.RunValue.losses m c hpk hci hni]
  · refine (θ_run Cert.ReferenceIdeal.defs _ _).mono (fun _ h c => ⟨(h c).1.trans ?_, (h c).2⟩)
      (Cert.ReferenceIdeal.Value.run (F := Ideal) m' ρ')
    obtain ⟨hz, hpk, hci, hni⟩ := hdec c
    rw [Cert.ReferenceIdeal.Read.val_main_v58_eq, (hagree c).1, (hagree c).2.1, (hagree c).2.2.1, (hagree c).2.2.2]
    rw [ref_mean, Cert.ReferenceIdeal.RefRows.losses_eq _ _ _ _ hpk hci hni, refLossVec_eq _ _ _ _ hz]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
